-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S63x8192 : Shape := ⟨2, ![63, 8192]⟩
abbrev S63x63 : Shape := ⟨2, ![63, 63]⟩
abbrev S8192x8192 : Shape := ⟨2, ![8192, 8192]⟩
abbrev S8192 : Shape := ⟨1, ![8192]⟩
abbrev S_ : Shape := ⟨0, ![]⟩

class Facts : Prop where
  bcast_S_S63x8192 : S_.BroadcastsInDim S63x8192 (![] : Fin 0 → Fin S63x8192.rank)
  reducesTo_S63x8192_S_d0_1 : S63x8192.ReducesTo [0, 1] S_
  h_S_ : 0 < S_.numel
  bcast_S_S63x63 : S_.BroadcastsInDim S63x63 (![] : Fin 0 → Fin S63x63.rank)
  reducesTo_S63x63_S_d0_1 : S63x63.ReducesTo [0, 1] S_
  bcast_S_S8192x8192 : S_.BroadcastsInDim S8192x8192 (![] : Fin 0 → Fin S8192x8192.rank)
  reducesTo_S8192x8192_S_d0_1 : S8192x8192.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_v13 : IVec S_ 1) (main_v16 : IVec S8192 1) : IVec S_ 1 :=
  let main_c_5 : IVec S_ 1 := constantI S_ 1 1#1
  let main_v17 : IVec S_ 1 := (fun x v => Host.reduce IntOp.andi x v reducesTo_S8192_S_d0 h_S_) main_v16 main_c_5
  let main_v18 : IVec S_ 1 := andi main_v13 main_v17
  main_v18

def fn {F : FTy → Type} [FloatOps F] (main_arg0 : FVec F S63x8192 .f32) (main_arg1 : FVec F S63x63 .f32) (main_arg2 : FVec F S8192x8192 .f32) (main_arg3 : FVec F S8192 .f32) : IVec S_ 1 :=
  let main_v0 : FVec F S63x8192 .f32 := Host.absf main_arg0
  let main_cst : FVec F S_ .f32 := constant S_ .f32 0x7F800000#32
  let main_v1 : FVec F S63x8192 .f32 := broadcastInDim S63x8192 ![] bcast_S_S63x8192 main_cst
  let main_v2 : IVec S63x8192 1 := cmpf .olt main_v0 main_v1
  let main_c : IVec S_ 1 := constantI S_ 1 1#1
  let main_v3 : IVec S_ 1 := (fun x v => Host.reduce IntOp.andi x v reducesTo_S63x8192_S_d0_1 h_S_) main_v2 main_c
  let main_v4 : FVec F S63x63 .f32 := Host.absf main_arg1
  let main_cst_0 : FVec F S_ .f32 := constant S_ .f32 0x7F800000#32
  let main_v5 : FVec F S63x63 .f32 := broadcastInDim S63x63 ![] bcast_S_S63x63 main_cst_0
  let main_v6 : IVec S63x63 1 := cmpf .olt main_v4 main_v5
  let main_c_1 : IVec S_ 1 := constantI S_ 1 1#1
  let main_v7 : IVec S_ 1 := (fun x v => Host.reduce IntOp.andi x v reducesTo_S63x63_S_d0_1 h_S_) main_v6 main_c_1
  let main_v8 : IVec S_ 1 := andi main_v3 main_v7
  let main_v9 : FVec F S8192x8192 .f32 := Host.absf main_arg2
  let main_cst_2 : FVec F S_ .f32 := constant S_ .f32 0x7F800000#32
  let main_v10 : FVec F S8192x8192 .f32 := broadcastInDim S8192x8192 ![] bcast_S_S8192x8192 main_cst_2
  let main_v11 : IVec S8192x8192 1 := cmpf .olt main_v9 main_v10
  let main_c_3 : IVec S_ 1 := constantI S_ 1 1#1
  let main_v12 : IVec S_ 1 := (fun x v => Host.reduce IntOp.andi x v reducesTo_S8192x8192_S_d0_1 h_S_) main_v11 main_c_3
  let main_v13 : IVec S_ 1 := andi main_v8 main_v12
  let main_v14 : FVec F S8192 .f32 := Host.absf main_arg3
  let main_cst_4 : FVec F S_ .f32 := constant S_ .f32 0x7F800000#32
  let main_v15 : FVec F S8192 .f32 := broadcastInDim S8192 ![] bcast_S_S8192 main_cst_4
  let main_v16 : IVec S8192 1 := cmpf .olt main_v14 main_v15
  fn_part1 (F := F) main_v13 main_v16
-- ==== Kernel.lean ====
abbrev S63x8192 : Shape := ⟨2, ![63, 8192]⟩
abbrev S63x63 : Shape := ⟨2, ![63, 63]⟩
abbrev S8192x8192 : Shape := ⟨2, ![8192, 8192]⟩
abbrev S8192 : Shape := ⟨1, ![8192]⟩
abbrev S1x8192 : Shape := ⟨2, ![1, 8192]⟩
abbrev S63x1024 : Shape := ⟨2, ![63, 1024]⟩
abbrev S2048x1024 : Shape := ⟨2, ![2048, 1024]⟩
abbrev S1x2048 : Shape := ⟨2, ![1, 2048]⟩
abbrev S63x2048 : Shape := ⟨2, ![63, 2048]⟩
abbrev S8192x63 : Shape := ⟨2, ![8192, 63]⟩

abbrev nBuf : Space → Nat
  | .hbm => 8
  | .vmem => 12
  | .smem => 0
  | _ => 0

abbrev bufTy : (tb : Table) → Fin (tcTables nBuf tb) → BufTy
  | .hbm, ⟨0, _⟩ => ⟨S63x8192, .f32⟩
  | .hbm, ⟨1, _⟩ => ⟨S63x63, .f32⟩
  | .hbm, ⟨2, _⟩ => ⟨S8192x8192, .f32⟩
  | .hbm, ⟨3, _⟩ => ⟨S8192, .f32⟩
  | .hbm, ⟨4, _⟩ => ⟨S1x8192, .f32⟩
  | .hbm, ⟨5, _⟩ => ⟨S63x8192, .f32⟩
  | .hbm, ⟨6, _⟩ => ⟨S8192x63, .f32⟩
  | .hbm, ⟨7, _⟩ => ⟨S63x8192, .f32⟩
  | .local _ .vmem, ⟨0, _⟩ => ⟨S63x1024, .f32⟩
  | .local _ .vmem, ⟨1, _⟩ => ⟨S63x1024, .f32⟩
  | .local _ .vmem, ⟨2, _⟩ => ⟨S2048x1024, .f32⟩
  | .local _ .vmem, ⟨3, _⟩ => ⟨S2048x1024, .f32⟩
  | .local _ .vmem, ⟨4, _⟩ => ⟨S1x2048, .f32⟩
  | .local _ .vmem, ⟨5, _⟩ => ⟨S1x2048, .f32⟩
  | .local _ .vmem, ⟨6, _⟩ => ⟨S63x2048, .f32⟩
  | .local _ .vmem, ⟨7, _⟩ => ⟨S63x2048, .f32⟩
  | .local _ .vmem, ⟨8, _⟩ => ⟨S63x2048, .f32⟩
  | .local _ .vmem, ⟨9, _⟩ => ⟨S63x63, .f32⟩
  | .local _ .vmem, ⟨10, _⟩ => ⟨S8192x63, .f32⟩
  | .local _ .vmem, ⟨11, _⟩ => ⟨S63x8192, .f32⟩
  | _, _ => ⟨S63x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg2_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem1_0 : DmaSem sig := 9
abbrev cc1_sem2_0 : DmaSem sig := 10

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S63x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S63x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S63x63 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S8192x63 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S63x8192 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

class Facts₀ : Prop where
  shapeCasts_S8192_S1x8192 : S8192.ShapeCasts S1x8192
  inb_S63x2048_S63x2048_0_0 : ∀ a, (![0, 0] : Fin 2 → Nat) a + S63x2048.size a ≤ S63x2048.size a
  h_S63x2048 : 0 < S63x2048.numel
  shapeCasts_S63x2048_S63x2048 : S63x2048.ShapeCasts S63x2048
  inb_S63x1024_S63x1024_0_0 : ∀ a, (![0, 0] : Fin 2 → Nat) a + S63x1024.size a ≤ S63x1024.size a
  h_S63x1024 : 0 < S63x1024.numel
  bitsLt_bf16_f32 : FTy.bits .bf16 < FTy.bits .f32
  inb_S2048x1024_S2048x1024_0_0 : ∀ a, (![0, 0] : Fin 2 → Nat) a + S2048x1024.size a ≤ S2048x1024.size a
  h_S2048x1024 : 0 < S2048x1024.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S63x2048 : S1x2048.Broadcasts S63x2048
  shapeCasts_S63x8192_S8192x63 : S63x8192.ShapeCasts S8192x63
  inb_S63x63_S63x63_0_0 : ∀ a, (![0, 0] : Fin 2 → Nat) a + S63x63.size a ≤ S63x63.size a
  h_S63x63 : 0 < S63x63.numel
  inb_S8192x63_S8192x63_0_0 : ∀ a, (![0, 0] : Fin 2 → Nat) a + S8192x63.size a ≤ S8192x63.size a
  h_S8192x63 : 0 < S8192x63.numel
  shapeCasts_S8192x63_S8192x63 : S8192x63.ShapeCasts S8192x63
  inb_S63x8192_S63x8192_0_0 : ∀ a, (![0, 0] : Fin 2 → Nat) a + S63x8192.size a ≤ S63x8192.size a
  h_S63x8192 : 0 < S63x8192.numel
  dot_S63x1024_S2048x1024_S63x2048_1_1_0_0_n_n_wf : DotDims.WF S63x1024 S2048x1024 S63x2048 [1] [1] [0] [0] [] []
  dot_S63x63_S8192x63_S63x8192_1_1_0_0_n_n_wf : DotDims.WF S63x63 S8192x63 S63x8192 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S63x1024.size a ≤ S63x8192.size a
  hwx0_0 : ∀ i : grid0.Coords, EltTy.bits .f32 = 32 ∨ (Rect.block (s := S63x8192) S63x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S8192x8192.size a
  hwx0_1 : ∀ i : grid0.Coords, EltTy.bits .f32 = 32 ∨ (Rect.block (s := S8192x8192) S2048x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x8192.size a
  hwx0_2 : ∀ i : grid0.Coords, EltTy.bits .f32 = 32 ∨ (Rect.block (s := S1x8192) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S63x2048.size a ≤ S63x8192.size a
  hwx0_3 : ∀ i : grid0.Coords, EltTy.bits .f32 = 32 ∨ (Rect.block (s := S63x8192) S63x2048.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S63x63.size a ≤ S63x63.size a
  hwx1_0 : ∀ i : grid1.Coords, EltTy.bits .f32 = 32 ∨ (Rect.block (s := S63x63) S63x63.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x63.size a ≤ S8192x63.size a
  hwx1_1 : ∀ i : grid1.Coords, EltTy.bits .f32 = 32 ∨ (Rect.block (s := S8192x63) S8192x63.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S63x8192.size a ≤ S63x8192.size a
  hwx1_2 : ∀ i : grid1.Coords, EltTy.bits .f32 = 32 ∨ (Rect.block (s := S63x8192) S63x8192.size (cc1_transform_2 i) (hinb1_2 i)).WholeWords (EltTy.packing .f32)

variable [Facts₀]

def dot_S63x1024_S2048x1024_S63x2048_1_1_0_0_n_n : DotDims S63x1024 S2048x1024 S63x2048 where
  lhsContracting := [1]
  rhsContracting := [1]
  lhsNonContracting := [0]
  rhsNonContracting := [0]
  lhsBatch := []
  rhsBatch := []
  wf := dot_S63x1024_S2048x1024_S63x2048_1_1_0_0_n_n_wf
def dot_S63x63_S8192x63_S63x8192_1_1_0_0_n_n : DotDims S63x63 S8192x63 S63x8192 where
  lhsContracting := [1]
  rhsContracting := [1]
  lhsNonContracting := [0]
  rhsNonContracting := [0]
  lhsBatch := []
  rhsBatch := []
  wf := dot_S63x63_S8192x63_S63x8192_1_1_0_0_n_n_wf

abbrev win0_0 : Pipeline.Window sig grid0 :=
  Pipeline.Window.ofSpec (Memref.whole main_arg0) S63x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S63x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg1) S63x63.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v2) S8192x63.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S63x8192.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S63x8192 : Shape := ⟨2, ![63, 8192]⟩
abbrev S63x63 : Shape := ⟨2, ![63, 63]⟩
abbrev S8192x8192 : Shape := ⟨2, ![8192, 8192]⟩
abbrev S8192 : Shape := ⟨1, ![8192]⟩
abbrev S1x8192 : Shape := ⟨2, ![1, 8192]⟩
abbrev S_ : Shape := ⟨0, ![]⟩
abbrev S8192x63 : Shape := ⟨2, ![8192, 63]⟩

abbrev nBuf : Space → Nat
  | .hbm => 14
  | .vmem => 0
  | .smem => 0
  | _ => 0

abbrev bufTy : (tb : Table) → Fin (tcTables nBuf tb) → BufTy
  | .hbm, ⟨0, _⟩ => ⟨S63x8192, .f32⟩
  | .hbm, ⟨1, _⟩ => ⟨S63x63, .f32⟩
  | .hbm, ⟨2, _⟩ => ⟨S8192x8192, .f32⟩
  | .hbm, ⟨3, _⟩ => ⟨S8192, .f32⟩
  | .hbm, ⟨4, _⟩ => ⟨S8192x8192, .f32⟩
  | .hbm, ⟨5, _⟩ => ⟨S63x8192, .f32⟩
  | .hbm, ⟨6, _⟩ => ⟨S1x8192, .f32⟩
  | .hbm, ⟨7, _⟩ => ⟨S63x8192, .f32⟩
  | .hbm, ⟨8, _⟩ => ⟨S63x8192, .f32⟩
  | .hbm, ⟨9, _⟩ => ⟨S_, .f32⟩
  | .hbm, ⟨10, _⟩ => ⟨S63x8192, .f32⟩
  | .hbm, ⟨11, _⟩ => ⟨S63x8192, .f32⟩
  | .hbm, ⟨12, _⟩ => ⟨S8192x63, .f32⟩
  | .hbm, ⟨13, _⟩ => ⟨S63x8192, .f32⟩
  | _, _ => ⟨S63x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_cst : Ref sig .tc := ⟨.hbm, 9, rfl⟩
abbrev main_call0_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]

class Facts₀ : Prop where
  transposes_S8192x8192_S8192x8192_1_0 : S8192x8192.Transposes [1, 0] S8192x8192
  bcast_S8192_S1x8192_1 : S8192.BroadcastsInDim S1x8192 (![1] : Fin 1 → Fin S1x8192.rank)
  bcast_S1x8192_S63x8192_0_1 : S1x8192.BroadcastsInDim S63x8192 (![0, 1] : Fin 2 → Fin S63x8192.rank)
  bcast_S_S63x8192 : S_.BroadcastsInDim S63x8192 (![] : Fin 0 → Fin S63x8192.rank)
  shapeCasts_S63x8192_S8192x63 : S63x8192.ShapeCasts S8192x63
  dot_S63x8192_S8192x8192_S63x8192_1_0_0_1_n_n_wf : DotDims.WF S63x8192 S8192x8192 S63x8192 [1] [0] [0] [1] [] []
  dot_S63x63_S8192x63_S63x8192_1_1_0_0_n_n_wf : DotDims.WF S63x63 S8192x63 S63x8192 [1] [1] [0] [0] [] []

variable [Facts₀]

def dot_S63x8192_S8192x8192_S63x8192_1_0_0_1_n_n : DotDims S63x8192 S8192x8192 S63x8192 where
  lhsContracting := [1]
  rhsContracting := [0]
  lhsNonContracting := [0]
  rhsNonContracting := [1]
  lhsBatch := []
  rhsBatch := []
  wf := dot_S63x8192_S8192x8192_S63x8192_1_0_0_1_n_n_wf
def dot_S63x63_S8192x63_S63x8192_1_1_0_0_n_n : DotDims S63x63 S8192x63 S63x8192 where
  lhsContracting := [1]
  rhsContracting := [1]
  lhsNonContracting := [0]
  rhsNonContracting := [0]
  lhsBatch := []
  rhsBatch := []
  wf := dot_S63x63_S8192x63_S63x8192_1_1_0_0_n_n_wf

class Facts : Prop extends Facts₀ where

variable [Facts]
-- ==== Proof.Bits.R0Base.lean ====
/-
  Region 0 (the K-blocked matmul with bias and relu), the part its three control cases share.
  The grid is 4 column tiles by 8 reduction steps; point t is column tile t / 8 at reduction step t % 8.
  The scratch accumulator is cleared at step 0, receives one partial product Label-block · W-blockᵀ per
  step, and at step 7 the output block max(acc + bias, 0) is stored; at every other step the output
  window is idle. Stated here: the entry contents V as a parameter, each window's block, the two
  branch conditions in closed form over the grid, where the output window is idle, the staging and
  scratch memrefs, and the class invariant with the scratch named.
-/
import proofs.«132898_j52673478918325_1_alg».proof.Proof.Gen.Kernel.Launch
import proofs.«132898_j52673478918325_1_alg».proof.Proof.Gen.Kernel.Skeleton
import proofs.«132898_j52673478918325_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when a region is entered
variable (V : (c : Dev nD) → (b : Ref sig .tc) → Buf (Elt F) ((c : Thread nD τ).loc b))

/-! ## The windows' blocks -/

/-- Window w's block at point t, cut out of its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The two branch conditions -/

/-- "This is reduction step 0": the accumulator is cleared. -/
abbrev isFirst (i : grid0.Coords) : Prop := (Scalar.cmpi .ne (Scalar.extui (Scalar.cmpi .eq (BitVec.ofNat 32 (i 1).val) 0#32)) 0#32) = 1#1
theorem isFirst_iff : ∀ t : Fin cfg0.N, isFirst (grid0.coords t) ↔ t.val % 8 = 0 :=
  (by decide +kernel : ∀ t : Fin grid0.N, isFirst (grid0.coords t) ↔ t.val % 8 = 0)

/-- "This is reduction step 7": the output block is stored. -/
abbrev isLast (i : grid0.Coords) : Prop := k0_cond2 i = 1#1
theorem isLast_iff : ∀ t : Fin cfg0.N, isLast (grid0.coords t) ↔ t.val % 8 = 7 :=
  (by decide +kernel : ∀ t : Fin grid0.N, isLast (grid0.coords t) ↔ t.val % 8 = 7)

/-! ## Where the windows are idle -/

theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
/-- Away from step 7 nothing is stored into the output window and the pipeline does not write it back. -/
theorem idle0_3 : ∀ t : Fin cfg0.N, ¬isLast (grid0.coords t) → cfg0.idle 3 (grid0.coords t) = true := by decide +kernel
theorem noFlush0_3 : ∀ t : Fin cfg0.N, ¬isLast (grid0.coords t) → (cfg0.win 3).flush t = false := by decide +kernel
theorem live0_3 : ∀ t : Fin cfg0.N, isLast (grid0.coords t) → cfg0.idle 3 (grid0.coords t) = false := by decide +kernel

/-! ## The memrefs the body is called with -/

abbrev ms0_0 (t : Fin cfg0.N) : Memref sig .tc .vmem S63x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S63x2048 .f32 := win0_3.stage (cfg0.slots t 3)
abbrev hs0_3 (t : Fin cfg0.N) : (ms0_3 t).IsWhole := hstage0_3 ((cfg0.slots t 3).cast nbuf0_3)
/-- The accumulator: a whole scoped buffer of the kernel's own. -/
abbrev accM : Memref sig .tc .vmem S63x2048 .f32 := Memref.whole cc0_scratch0
abbrev accV : View sig .tc .vmem S63x2048 .f32 := (accM).view
/-- One staging buffer of the output window, through which its contents are stated. -/
abbrev outV : View sig .tc .vmem S63x2048 .f32 := (Memref.whole cc0_stg3_0 : Memref sig .tc .vmem S63x2048 .f32).view

/-- The class invariant with the accumulator as a memref owned at some contents; the other scoped buffers
    (region 1's staging buffers) ride along unread. -/
def restOf0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f))

theorem PhiA0_eq (c : Dev nD) :
    (Pipeline.ΦA spec0 c : sProp 𝕄)
      = iprop(iprop((∃ d, owns (c : Thread nD τ) accM fullShare d) ∗ restOf0 (F := F) c) ∗ (∃ r, prngReg c r)) := by
  unfold Pipeline.ΦA restOf0; rw [scopedRest0_eq]; simp only [accM, owns_whole]; try rfl

end Cert.Kernel.Hand

end
-- ==== Proof.Bits.R0RunFirst.lean ====
/-
  Region 0's body at reduction step 0: the accumulator, found at anything, is cleared and then receives the
  first partial product; the output window is not touched. The run yields the pieces the accumulator ends with.
-/
import proofs.«132898_j52673478918325_1_alg».proof.Proof.Bits.R0Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body at a point of step 0, on whole memrefs: the three input blocks at x0, x1, x2 and the idle output
    buffer at xi come back as they were; the accumulator, entered at anything, ends with the pieces LS written. -/
noncomputable def runFirst (c : Dev nD) (i : grid0.Coords) (arg2 : Memref sig .tc .vmem S63x1024 .f32) (harg2 : arg2.IsWhole) (arg3 : Memref sig .tc .vmem S2048x1024 .f32) (harg3 : arg3.IsWhole) (arg4 : Memref sig .tc .vmem S1x2048 .f32) (harg4 : arg4.IsWhole) (arg5 : Memref sig .tc .vmem S63x2048 .f32) (harg5 : arg5.IsWhole) (arg6 : Memref sig .tc .vmem S63x2048 .f32) (harg6 : arg6.IsWhole) (hc0 : isFirst i) (hc1 : ¬isLast i)
    (x0 : Vec F S63x1024 .f32) (x1 : Vec F S2048x1024 .f32) (x2 : Vec F S1x2048 .f32) :
    { LS : List (View.Piece (Elt F) S63x2048 .f32) //
      ∀ (xi : Vec F S63x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi ∗ (∃ f, arg6.view.loc (c : Thread nD τ) ↦[arg6.view.set]{fullShare} arg6.view.writes (Elt F) f LS)) -∗ K ⟨⟩))
          ⊢ wp frame (wpE (defs₀ (F := F)) Variants.none c none) E (cc0__mlp_relu_kernel i arg2 harg2 arg3 harg3 arg4 harg4 arg5 harg5 arg6 harg6) K } := by
  refine ⟨?_, fun xi E K => ?run⟩
  case run =>
    simp only [cc0__mlp_relu_kernel_eq_skeleton]; unfold cc0__mlp_relu_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.Kernel.Hand

end
-- ==== Proof.Bits.R0RunMid.lean ====
/-
  Region 0's body at a reduction step strictly between 0 and 7: the accumulator, found at what the step before
  left, receives one more partial product; the output window is not touched.
-/
import proofs.«132898_j52673478918325_1_alg».proof.Proof.Bits.R0Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body at a middle step, on whole memrefs: inputs and the idle output buffer come back as they were; the
    accumulator, entered at xs, ends with the pieces LS written. -/
noncomputable def runMid (c : Dev nD) (i : grid0.Coords) (arg2 : Memref sig .tc .vmem S63x1024 .f32) (harg2 : arg2.IsWhole) (arg3 : Memref sig .tc .vmem S2048x1024 .f32) (harg3 : arg3.IsWhole) (arg4 : Memref sig .tc .vmem S1x2048 .f32) (harg4 : arg4.IsWhole) (arg5 : Memref sig .tc .vmem S63x2048 .f32) (harg5 : arg5.IsWhole) (arg6 : Memref sig .tc .vmem S63x2048 .f32) (harg6 : arg6.IsWhole) (hc0 : ¬isFirst i) (hc1 : ¬isLast i)
    (x0 : Vec F S63x1024 .f32) (x1 : Vec F S2048x1024 .f32) (x2 : Vec F S1x2048 .f32) (xs : Vec F S63x2048 .f32) :
    { LS : List (View.Piece (Elt F) S63x2048 .f32) //
      ∀ (xi : Vec F S63x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi ∗ (∃ f, arg6.view.loc (c : Thread nD τ) ↦[arg6.view.set]{fullShare} arg6.view.writes (Elt F) f LS)) -∗ K ⟨⟩))
          ⊢ wp frame (wpE (defs₀ (F := F)) Variants.none c none) E (cc0__mlp_relu_kernel i arg2 harg2 arg3 harg3 arg4 harg4 arg5 harg5 arg6 harg6) K } := by
  refine ⟨?_, fun xi E K => ?run⟩
  case run =>
    simp only [cc0__mlp_relu_kernel_eq_skeleton]; unfold cc0__mlp_relu_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.Kernel.Hand

end
-- ==== Proof.Bits.R0RunLast.lean ====
/-
  Region 0's body at reduction step 7: the accumulator receives the last partial product, and the output
  block max(acc + bias, 0) is stored over the whole output buffer, found at anything.
-/
import proofs.«132898_j52673478918325_1_alg».proof.Proof.Bits.R0Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body at a point of step 7, on whole memrefs: the inputs come back as they were; the accumulator, entered
    at xs, ends with the pieces LS written and the output buffer with the pieces L3. -/
noncomputable def runLast (c : Dev nD) (i : grid0.Coords) (arg2 : Memref sig .tc .vmem S63x1024 .f32) (harg2 : arg2.IsWhole) (arg3 : Memref sig .tc .vmem S2048x1024 .f32) (harg3 : arg3.IsWhole) (arg4 : Memref sig .tc .vmem S1x2048 .f32) (harg4 : arg4.IsWhole) (arg5 : Memref sig .tc .vmem S63x2048 .f32) (harg5 : arg5.IsWhole) (arg6 : Memref sig .tc .vmem S63x2048 .f32) (harg6 : arg6.IsWhole) (hc0 : ¬isFirst i) (hc1 : isLast i)
    (x0 : Vec F S63x1024 .f32) (x1 : Vec F S2048x1024 .f32) (x2 : Vec F S1x2048 .f32) (xs : Vec F S63x2048 .f32) :
    Σ' (L3 : List (View.Piece (Elt F) S63x2048 .f32)), { LS : List (View.Piece (Elt F) S63x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc0__mlp_relu_kernel i arg2 harg2 arg3 harg3 arg4 harg4 arg5 harg5 arg6 harg6) K } := by
  refine ⟨?_, ?_, fun E K => ?run⟩
  case run =>
    simp only [cc0__mlp_relu_kernel_eq_skeleton]; unfold cc0__mlp_relu_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.Kernel.Hand

end
-- ==== Proof.Bits.R0Frame.lean ====
/-
  Region 0's proof data and body obligation. What the accumulator holds after point t is a fold over the
  points: a point of reduction step 0 restarts it from its own partial product, any later step adds its partial
  product to what the point before left. The output buffer after a point of step 7 is max(acc + bias, 0) over
  the accumulator the point before left; at the other points the window is idle and its buffer is handed back
  as found. The region's invariant keeps the accumulator at the fold's value from the first point on.
-/
import proofs.«132898_j52673478918325_1_alg».proof.Proof.Bits.R0RunFirst
import proofs.«132898_j52673478918325_1_alg».proof.Proof.Bits.R0RunMid
import proofs.«132898_j52673478918325_1_alg».proof.Proof.Bits.R0RunLast

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The pieces each case writes cover their buffers -/

theorem coverFirst (c : Dev nD) (i : grid0.Coords) (arg2 : Memref sig .tc .vmem S63x1024 .f32) (harg2 : arg2.IsWhole) (arg3 : Memref sig .tc .vmem S2048x1024 .f32) (harg3 : arg3.IsWhole) (arg4 : Memref sig .tc .vmem S1x2048 .f32) (harg4 : arg4.IsWhole) (arg5 : Memref sig .tc .vmem S63x2048 .f32) (harg5 : arg5.IsWhole) (arg6 : Memref sig .tc .vmem S63x2048 .f32) (harg6 : arg6.IsWhole) (hc0 : isFirst i) (hc1 : ¬isLast i)
    (x0 : Vec F S63x1024 .f32) (x1 : Vec F S2048x1024 .f32) (x2 : Vec F S1x2048 .f32) (y : S63x2048.Idx) :
    ∃ pc ∈ (runFirst c i arg2 harg2 arg3 harg3 arg4 harg4 arg5 harg5 arg6 harg6 hc0 hc1 x0 x1 x2).1, y ∈ pc.1.set :=
  View.cover_of_tiledL (runFirst c i arg2 harg2 arg3 harg3 arg4 harg4 arg5 harg5 arg6 harg6 hc0 hc1 x0 x1 x2).1 S63x2048.size (by sl_kernel_rfl) y

theorem coverMid (c : Dev nD) (i : grid0.Coords) (arg2 : Memref sig .tc .vmem S63x1024 .f32) (harg2 : arg2.IsWhole) (arg3 : Memref sig .tc .vmem S2048x1024 .f32) (harg3 : arg3.IsWhole) (arg4 : Memref sig .tc .vmem S1x2048 .f32) (harg4 : arg4.IsWhole) (arg5 : Memref sig .tc .vmem S63x2048 .f32) (harg5 : arg5.IsWhole) (arg6 : Memref sig .tc .vmem S63x2048 .f32) (harg6 : arg6.IsWhole) (hc0 : ¬isFirst i) (hc1 : ¬isLast i)
    (x0 : Vec F S63x1024 .f32) (x1 : Vec F S2048x1024 .f32) (x2 : Vec F S1x2048 .f32) (xs : Vec F S63x2048 .f32) (y : S63x2048.Idx) :
    ∃ pc ∈ (runMid c i arg2 harg2 arg3 harg3 arg4 harg4 arg5 harg5 arg6 harg6 hc0 hc1 x0 x1 x2 xs).1, y ∈ pc.1.set :=
  View.cover_of_tiledL (runMid c i arg2 harg2 arg3 harg3 arg4 harg4 arg5 harg5 arg6 harg6 hc0 hc1 x0 x1 x2 xs).1 S63x2048.size (by sl_kernel_rfl) y

theorem coverLastOut (c : Dev nD) (i : grid0.Coords) (arg2 : Memref sig .tc .vmem S63x1024 .f32) (harg2 : arg2.IsWhole) (arg3 : Memref sig .tc .vmem S2048x1024 .f32) (harg3 : arg3.IsWhole) (arg4 : Memref sig .tc .vmem S1x2048 .f32) (harg4 : arg4.IsWhole) (arg5 : Memref sig .tc .vmem S63x2048 .f32) (harg5 : arg5.IsWhole) (arg6 : Memref sig .tc .vmem S63x2048 .f32) (harg6 : arg6.IsWhole) (hc0 : ¬isFirst i) (hc1 : isLast i)
    (x0 : Vec F S63x1024 .f32) (x1 : Vec F S2048x1024 .f32) (x2 : Vec F S1x2048 .f32) (xs : Vec F S63x2048 .f32) (y : S63x2048.Idx) :
    ∃ pc ∈ (runLast c i arg2 harg2 arg3 harg3 arg4 harg4 arg5 harg5 arg6 harg6 hc0 hc1 x0 x1 x2 xs).1, y ∈ pc.1.set :=
  View.cover_of_tiledL (runLast c i arg2 harg2 arg3 harg3 arg4 harg4 arg5 harg5 arg6 harg6 hc0 hc1 x0 x1 x2 xs).1 S63x2048.size (by sl_kernel_rfl) y

theorem coverLastAcc (c : Dev nD) (i : grid0.Coords) (arg2 : Memref sig .tc .vmem S63x1024 .f32) (harg2 : arg2.IsWhole) (arg3 : Memref sig .tc .vmem S2048x1024 .f32) (harg3 : arg3.IsWhole) (arg4 : Memref sig .tc .vmem S1x2048 .f32) (harg4 : arg4.IsWhole) (arg5 : Memref sig .tc .vmem S63x2048 .f32) (harg5 : arg5.IsWhole) (arg6 : Memref sig .tc .vmem S63x2048 .f32) (harg6 : arg6.IsWhole) (hc0 : ¬isFirst i) (hc1 : isLast i)
    (x0 : Vec F S63x1024 .f32) (x1 : Vec F S2048x1024 .f32) (x2 : Vec F S1x2048 .f32) (xs : Vec F S63x2048 .f32) (y : S63x2048.Idx) :
    ∃ pc ∈ (runLast c i arg2 harg2 arg3 harg3 arg4 harg4 arg5 harg5 arg6 harg6 hc0 hc1 x0 x1 x2 xs).2.1, y ∈ pc.1.set :=
  View.cover_of_tiledL (runLast c i arg2 harg2 arg3 harg3 arg4 harg4 arg5 harg5 arg6 harg6 hc0 hc1 x0 x1 x2 xs).2.1 S63x2048.size (by sl_kernel_rfl) y

/-! ## What each case leaves -/

/-- The accumulator after a point of step 0. -/
def accFirst (c : Dev nD) (i : grid0.Coords) (arg2 : Memref sig .tc .vmem S63x1024 .f32) (harg2 : arg2.IsWhole) (arg3 : Memref sig .tc .vmem S2048x1024 .f32) (harg3 : arg3.IsWhole) (arg4 : Memref sig .tc .vmem S1x2048 .f32) (harg4 : arg4.IsWhole) (arg5 : Memref sig .tc .vmem S63x2048 .f32) (harg5 : arg5.IsWhole) (arg6 : Memref sig .tc .vmem S63x2048 .f32) (harg6 : arg6.IsWhole) (hc0 : isFirst i) (hc1 : ¬isLast i)
    (x0 : Vec F S63x1024 .f32) (x1 : Vec F S2048x1024 .f32) (x2 : Vec F S1x2048 .f32) : Vec F S63x2048 .f32 :=
  View.canon (runFirst c i arg2 harg2 arg3 harg3 arg4 harg4 arg5 harg5 arg6 harg6 hc0 hc1 x0 x1 x2).1
/-- The accumulator after a middle step, over what the step before left. -/
def accMid (c : Dev nD) (i : grid0.Coords) (arg2 : Memref sig .tc .vmem S63x1024 .f32) (harg2 : arg2.IsWhole) (arg3 : Memref sig .tc .vmem S2048x1024 .f32) (harg3 : arg3.IsWhole) (arg4 : Memref sig .tc .vmem S1x2048 .f32) (harg4 : arg4.IsWhole) (arg5 : Memref sig .tc .vmem S63x2048 .f32) (harg5 : arg5.IsWhole) (arg6 : Memref sig .tc .vmem S63x2048 .f32) (harg6 : arg6.IsWhole) (hc0 : ¬isFirst i) (hc1 : ¬isLast i)
    (x0 : Vec F S63x1024 .f32) (x1 : Vec F S2048x1024 .f32) (x2 : Vec F S1x2048 .f32) (xs : Vec F S63x2048 .f32) : Vec F S63x2048 .f32 :=
  View.canon (runMid c i arg2 harg2 arg3 harg3 arg4 harg4 arg5 harg5 arg6 harg6 hc0 hc1 x0 x1 x2 xs).1
/-- The accumulator after step 7, -/
def accLast (c : Dev nD) (i : grid0.Coords) (arg2 : Memref sig .tc .vmem S63x1024 .f32) (harg2 : arg2.IsWhole) (arg3 : Memref sig .tc .vmem S2048x1024 .f32) (harg3 : arg3.IsWhole) (arg4 : Memref sig .tc .vmem S1x2048 .f32) (harg4 : arg4.IsWhole) (arg5 : Memref sig .tc .vmem S63x2048 .f32) (harg5 : arg5.IsWhole) (arg6 : Memref sig .tc .vmem S63x2048 .f32) (harg6 : arg6.IsWhole) (hc0 : ¬isFirst i) (hc1 : isLast i)
    (x0 : Vec F S63x1024 .f32) (x1 : Vec F S2048x1024 .f32) (x2 : Vec F S1x2048 .f32) (xs : Vec F S63x2048 .f32) : Vec F S63x2048 .f32 :=
  View.canon (runLast c i arg2 harg2 arg3 harg3 arg4 harg4 arg5 harg5 arg6 harg6 hc0 hc1 x0 x1 x2 xs).2.1
/-- and the output buffer there. -/
def outLast (c : Dev nD) (i : grid0.Coords) (arg2 : Memref sig .tc .vmem S63x1024 .f32) (harg2 : arg2.IsWhole) (arg3 : Memref sig .tc .vmem S2048x1024 .f32) (harg3 : arg3.IsWhole) (arg4 : Memref sig .tc .vmem S1x2048 .f32) (harg4 : arg4.IsWhole) (arg5 : Memref sig .tc .vmem S63x2048 .f32) (harg5 : arg5.IsWhole) (arg6 : Memref sig .tc .vmem S63x2048 .f32) (harg6 : arg6.IsWhole) (hc0 : ¬isFirst i) (hc1 : isLast i)
    (x0 : Vec F S63x1024 .f32) (x1 : Vec F S2048x1024 .f32) (x2 : Vec F S1x2048 .f32) (xs : Vec F S63x2048 .f32) : Vec F S63x2048 .f32 :=
  View.canon (runLast c i arg2 harg2 arg3 harg3 arg4 harg4 arg5 harg5 arg6 harg6 hc0 hc1 x0 x1 x2 xs).1

/-! ## The fold over the points -/

/-- Contents nothing reads: the accumulator before the first point. -/
abbrev noAcc : Vec F S63x2048 .f32 := accV.read (Elt F) accV.junk

/-- One point's effect on the accumulator, by the reduction step the point is at. -/
def stepAcc (c : Dev nD) (t : Fin cfg0.N) (prev : Vec F S63x2048 .f32) : Vec F S63x2048 .f32 :=
  if h0 : t.val % 8 = 0 then
    accFirst c (grid0.coords t) (ms0_0 t) (hs0_0 t) (ms0_1 t) (hs0_1 t) (ms0_2 t) (hs0_2 t) (ms0_3 t) (hs0_3 t) accM (Memref.isWhole_whole _) ((isFirst_iff t).mpr h0) (fun h => absurd ((isLast_iff t).mp h) (by omega)) (iblk0 V c 0 t) (iblk0 V c 1 t) (iblk0 V c 2 t)
  else if h7 : t.val % 8 = 7 then
    accLast c (grid0.coords t) (ms0_0 t) (hs0_0 t) (ms0_1 t) (hs0_1 t) (ms0_2 t) (hs0_2 t) (ms0_3 t) (hs0_3 t) accM (Memref.isWhole_whole _) (fun h => h0 ((isFirst_iff t).mp h)) ((isLast_iff t).mpr h7) (iblk0 V c 0 t) (iblk0 V c 1 t) (iblk0 V c 2 t) prev
  else
    accMid c (grid0.coords t) (ms0_0 t) (hs0_0 t) (ms0_1 t) (hs0_1 t) (ms0_2 t) (hs0_2 t) (ms0_3 t) (hs0_3 t) accM (Memref.isWhole_whole _) (fun h => h0 ((isFirst_iff t).mp h)) (fun h => h7 ((isLast_iff t).mp h)) (iblk0 V c 0 t) (iblk0 V c 1 t) (iblk0 V c 2 t) prev

/-- The accumulator after point n. -/
def accAt (c : Dev nD) : (n : ℕ) → n < cfg0.N → Vec F S63x2048 .f32
  | 0, hn => stepAcc V c ⟨0, hn⟩ noAcc
  | n + 1, hn => stepAcc V c ⟨n + 1, hn⟩ (accAt c n (Nat.lt_of_succ_lt hn))

/-- The accumulator as point t finds it. -/
def prevAcc (c : Dev nD) : (t : Fin cfg0.N) → Vec F S63x2048 .f32
  | ⟨0, _⟩ => noAcc
  | ⟨n + 1, hn⟩ => accAt V c n (Nat.lt_of_succ_lt hn)

theorem accAt_eq (c : Dev nD) (t : Fin cfg0.N) : accAt V c t.val t.isLt = stepAcc V c t (prevAcc V c t) := by
  obtain ⟨n, hn⟩ := t
  cases n <;> rfl

/-- The output buffer after point t: the stored block at step 7; elsewhere a placeholder nothing reads (the window is
    idle there, neither written back nor read at the next point). -/
def outAt (c : Dev nD) (t : Fin cfg0.N) : Vec F S63x2048 .f32 :=
  if h7 : t.val % 8 = 7 then
    outLast c (grid0.coords t) (ms0_0 t) (hs0_0 t) (ms0_1 t) (hs0_1 t) (ms0_2 t) (hs0_2 t) (ms0_3 t) (hs0_3 t) accM (Memref.isWhole_whole _) (fun h => absurd ((isFirst_iff t).mp h) (by omega)) ((isLast_iff t).mpr h7) (iblk0 V c 0 t) (iblk0 V c 1 t) (iblk0 V c 2 t) (prevAcc V c t)
  else prevAcc V c t

/-! ## The invariant -/

/-- Before the first point the class invariant (every scoped buffer at anything); from then on the accumulator at the
    fold's value, the other scoped buffers at anything, the generator register at some state. -/
def PhiS (c : Dev nD) : (n : ℕ) → n ≤ cfg0.N → sProp 𝕄
  | 0, _ => Pipeline.ΦA spec0 c
  | n + 1, hn => iprop(iprop(owns (c : Thread nD τ) accM fullShare (accAt V c n hn) ∗ restOf0 (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) accM fullShare (accAt V c n hn) ∗ restOf0 (F := F) c) ∗ (∃ r, prngReg c r)) := rfl

theorem PhiS_before (c : Dev nD) (t : Fin cfg0.N) (hz : t.val ≠ 0) :
    PhiS V c t.val (Nat.le_of_lt t.isLt) = iprop(iprop(owns (c : Thread nD τ) accM fullShare (prevAcc V c t) ∗ restOf0 (F := F) c) ∗ (∃ r, prngReg c r)) := by
  obtain ⟨n, hn⟩ := t
  cases n with
  | zero => exact absurd rfl hz
  | succ n => rfl

theorem PhiS_pos (c : Dev nD) (n : ℕ) (h : n ≤ cfg0.N) (hz : n ≠ 0) :
    PhiS V c n h = iprop(iprop(owns (c : Thread nD τ) accM fullShare (accAt V c (n - 1) (by omega)) ∗ restOf0 (F := F) c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outAt V c t
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = outAt V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

theorem leaves0_0 (c : Dev nD) (t : Fin cfg0.N) : (dat0 V c).leavesExact 0 t = owns (c : Thread nD τ) (ms0_0 t) fullShare (iblk0 V c 0 t) := by
  unfold Dat.leavesExact; rw [live0_0 t, after0_0]
theorem leaves0_1 (c : Dev nD) (t : Fin cfg0.N) : (dat0 V c).leavesExact 1 t = owns (c : Thread nD τ) (ms0_1 t) fullShare (iblk0 V c 1 t) := by
  unfold Dat.leavesExact; rw [live0_1 t, after0_1]
theorem leaves0_2 (c : Dev nD) (t : Fin cfg0.N) : (dat0 V c).leavesExact 2 t = owns (c : Thread nD τ) (ms0_2 t) fullShare (iblk0 V c 2 t) := by
  unfold Dat.leavesExact; rw [live0_2 t, after0_2]

set_option maxHeartbeats 4000000 in
/-- The body at any point, by the reduction step it is at. The invariant hands the body the accumulator (at anything at
    the very first point, else at what the point before left) and takes it back at the fold's value. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ, accAt_eq]
  rw [leaves0_0, leaves0_1, leaves0_2]
  by_cases h0 : t.val % 8 = 0
  · have hf : isFirst (grid0.coords t) := (isFirst_iff t).mpr h0
    have hnl : ¬isLast (grid0.coords t) := fun h => absurd ((isLast_iff t).mp h) (by omega)
    rw [Dat.leavesExact_idle (dat0 V c) 3 t (idle0_3 t hnl) (noFlush0_3 t hnl)]
    rw [show stepAcc V c t (prevAcc V c t) = accFirst c (grid0.coords t) (ms0_0 t) (hs0_0 t) (ms0_1 t) (hs0_1 t) (ms0_2 t) (hs0_2 t) (ms0_3 t) (hs0_3 t) accM (Memref.isWhole_whole _) hf hnl (iblk0 V c 0 t) (iblk0 V c 1 t) (iblk0 V c 2 t) from dif_pos h0]
    unfold accFirst
    by_cases hz : t.val = 0
    · rw [PhiS_castSucc V c t, PhiS_zero V c _ _ hz, PhiA0_eq]
      iintro ⟨⟨⟨HS, Hr⟩, Hg⟩, Ho, ⟨%d0, H0⟩, ⟨%d1, H1⟩, ⟨%d2, H2⟩, ⟨%d3, H3⟩⟩
      iapply ((runFirst c (grid0.coords t) (ms0_0 t) (hs0_0 t) (ms0_1 t) (hs0_1 t) (ms0_2 t) (hs0_2 t) (ms0_3 t) (hs0_3 t) accM (Memref.isWhole_whole _) hf hnl (iblk0 V c 0 t) (iblk0 V c 1 t) (iblk0 V c 2 t)).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hr Hg]
      · isplitl [HS Hr]
        · isplitl [HS]
          · unfold owns; iexists _; isplitr
            swap; · iexact HS
            ipureintro; exact View.read_writes_eq_canon _ _ _ (coverFirst c _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3
    · rw [PhiS_castSucc V c t, PhiS_before V c t hz]
      iintro ⟨⟨⟨HS, Hr⟩, Hg⟩, Ho, ⟨%d0, H0⟩, ⟨%d1, H1⟩, ⟨%d2, H2⟩, ⟨%d3, H3⟩⟩
      iapply ((runFirst c (grid0.coords t) (ms0_0 t) (hs0_0 t) (ms0_1 t) (hs0_1 t) (ms0_2 t) (hs0_2 t) (ms0_3 t) (hs0_3 t) accM (Memref.isWhole_whole _) hf hnl (iblk0 V c 0 t) (iblk0 V c 1 t) (iblk0 V c 2 t)).2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hr Hg]
      · isplitl [HS Hr]
        · isplitl [HS]
          · unfold owns; iexists _; isplitr
            swap; · iexact HS
            ipureintro; exact View.read_writes_eq_canon _ _ _ (coverFirst c _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3
  · have hnf : ¬isFirst (grid0.coords t) := fun h => h0 ((isFirst_iff t).mp h)
    have hz : t.val ≠ 0 := fun h => h0 (by rw [h])
    by_cases h7 : t.val % 8 = 7
    · have hl : isLast (grid0.coords t) := (isLast_iff t).mpr h7
      rw [show (dat0 V c).leavesExact 3 t = owns (c : Thread nD τ) (ms0_3 t) fullShare ((dat0 V c).after 3 t) from by
        unfold Dat.leavesExact; rw [live0_3 t hl], after0_3]
      rw [show outAt V c t = outLast c (grid0.coords t) (ms0_0 t) (hs0_0 t) (ms0_1 t) (hs0_1 t) (ms0_2 t) (hs0_2 t) (ms0_3 t) (hs0_3 t) accM (Memref.isWhole_whole _) hnf hl (iblk0 V c 0 t) (iblk0 V c 1 t) (iblk0 V c 2 t) (prevAcc V c t) from dif_pos h7]
      rw [show stepAcc V c t (prevAcc V c t) = accLast c (grid0.coords t) (ms0_0 t) (hs0_0 t) (ms0_1 t) (hs0_1 t) (ms0_2 t) (hs0_2 t) (ms0_3 t) (hs0_3 t) accM (Memref.isWhole_whole _) hnf hl (iblk0 V c 0 t) (iblk0 V c 1 t) (iblk0 V c 2 t) (prevAcc V c t) from (dif_neg h0).trans (dif_pos h7)]
      unfold accLast outLast
      rw [PhiS_castSucc V c t, PhiS_before V c t hz]
      iintro ⟨⟨⟨HS, Hr⟩, Hg⟩, Ho, ⟨%d0, H0⟩, ⟨%d1, H1⟩, ⟨%d2, H2⟩, ⟨%d3, H3⟩⟩
      iapply ((runLast c (grid0.coords t) (ms0_0 t) (hs0_0 t) (ms0_1 t) (hs0_1 t) (ms0_2 t) (hs0_2 t) (ms0_3 t) (hs0_3 t) accM (Memref.isWhole_whole _) hnf hl (iblk0 V c 0 t) (iblk0 V c 1 t) (iblk0 V c 2 t) (prevAcc V c t)).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hr Hg]
      · isplitl [HS Hr]
        · isplitl [HS]
          · unfold owns; iexists _; isplitr
            swap; · iexact HS
            ipureintro; exact View.read_writes_eq_canon _ _ _ (coverLastAcc c _ _ _ _ _ _ _ _ _ _ _ _ _ _ _ _ _)
          iexact Hr
        iexact Hg
      isplitl [Ho]; · iexact Ho
      isplitl [H0]; · iexact H0
      isplitl [H1]; · iexact H1
      isplitl [H2]; · iexact H2
      unfold owns; iexists _; isplitr
      swap; · iexact H3
      ipureintro; exact View.read_writes_eq_canon _ _ _ (coverLastOut c _ _ _ _ _ _ _ _ _ _ _ _ _ _ _ _ _)
    · have hnl : ¬isLast (grid0.coords t) := fun h => h7 ((isLast_iff t).mp h)
      rw [Dat.leavesExact_idle (dat0 V c) 3 t (idle0_3 t hnl) (noFlush0_3 t hnl)]
      rw [show stepAcc V c t (prevAcc V c t) = accMid c (grid0.coords t) (ms0_0 t) (hs0_0 t) (ms0_1 t) (hs0_1 t) (ms0_2 t) (hs0_2 t) (ms0_3 t) (hs0_3 t) accM (Memref.isWhole_whole _) hnf hnl (iblk0 V c 0 t) (iblk0 V c 1 t) (iblk0 V c 2 t) (prevAcc V c t) from (dif_neg h0).trans (dif_neg h7)]
      unfold accMid
      rw [PhiS_castSucc V c t, PhiS_before V c t hz]
      iintro ⟨⟨⟨HS, Hr⟩, Hg⟩, Ho, ⟨%d0, H0⟩, ⟨%d1, H1⟩, ⟨%d2, H2⟩, ⟨%d3, H3⟩⟩
      iapply ((runMid c (grid0.coords t) (ms0_0 t) (hs0_0 t) (ms0_1 t) (hs0_1 t) (ms0_2 t) (hs0_2 t) (ms0_3 t) (hs0_3 t) accM (Memref.isWhole_whole _) hnf hnl (iblk0 V c 0 t) (iblk0 V c 1 t) (iblk0 V c 2 t) (prevAcc V c t)).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hr Hg]
      · isplitl [HS Hr]
        · isplitl [HS]
          · unfold owns; iexists _; isplitr
            swap; · iexact HS
            ipureintro; exact View.read_writes_eq_canon _ _ _ (coverMid c _ _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## In and out of the region -/

theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the class invariant back: the accumulator's value is forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 32 := N_0; omega), PhiA0_eq]
  iintro ⟨⟨HS, Hr⟩, Hg⟩
  isplitl [HS Hr]
  · isplitl [HS]
    · iexists _; iexact HS
    iexact Hr
  iexact Hg

end Cert.Kernel.Hand

end
-- ==== Proof.Bits.R1Frame.lean ====
/-
  Region 1 (the contraction of S with the reshaped activations): one grid point, both operands staged whole,
  the product stored over the whole output buffer. Stated at a parameter V, the buffer contents when the region
  is entered: the windows' blocks, the body's run with the pieces the output ends with, the proof data at the
  class invariant (nothing is carried), and the body obligation.
-/
import proofs.«132898_j52673478918325_1_alg».proof.Proof.Gen.Kernel.Launch
import proofs.«132898_j52673478918325_1_alg».proof.Proof.Gen.Kernel.Skeleton
import proofs.«132898_j52673478918325_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at the one point, cut out of its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev ms1_0 (t : Fin cfg1.N) : Memref sig .tc .vmem S63x63 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x63 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S63x8192 .f32 := win1_2.stage (cfg1.slots t 2)
abbrev hs1_2 (t : Fin cfg1.N) : (ms1_2 t).IsWhole := hstage1_2 ((cfg1.slots t 2).cast nbuf1_2)

set_option maxHeartbeats 1000000 in
/-- The body on whole memrefs: the operands at x0 (S) and x1 (the reshaped activations) come back as they were; the
    output buffer, entered at anything, ends with the pieces L written. -/
noncomputable def runProd (c : Dev nD) (i : grid1.Coords) (arg1 : Memref sig .tc .vmem S63x63 .f32) (harg1 : arg1.IsWhole) (arg2 : Memref sig .tc .vmem S8192x63 .f32) (harg2 : arg2.IsWhole) (arg3 : Memref sig .tc .vmem S63x8192 .f32) (harg3 : arg3.IsWhole) (x0 : Vec F S63x63 .f32) (x1 : Vec F S8192x63 .f32) :
    { L : List (View.Piece (Elt F) S63x8192 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L)) -∗ K ⟨⟩))
          ⊢ wp frame (wpE (defs₀ (F := F)) Variants.none c none) E (cc1__s_ml_kernel i arg1 harg1 arg2 harg2 arg3 harg3) K } := by
  refine ⟨?_, fun E K => ?run⟩
  case run =>
    simp only [cc1__s_ml_kernel_eq_skeleton]; unfold cc1__s_ml_kernel_skel
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    iexists _; iexact H2

theorem coverProd (c : Dev nD) (i : grid1.Coords) (arg1 : Memref sig .tc .vmem S63x63 .f32) (harg1 : arg1.IsWhole) (arg2 : Memref sig .tc .vmem S8192x63 .f32) (harg2 : arg2.IsWhole) (arg3 : Memref sig .tc .vmem S63x8192 .f32) (harg3 : arg3.IsWhole) (x0 : Vec F S63x63 .f32) (x1 : Vec F S8192x63 .f32) (y : S63x8192.Idx) :
    ∃ pc ∈ (runProd c i arg1 harg1 arg2 harg2 arg3 harg3 x0 x1).1, y ∈ pc.1.set :=
  View.cover_of_tiledL (runProd c i arg1 harg1 arg2 harg2 arg3 harg3 x0 x1).1 S63x8192.size (by sl_kernel_rfl) y

/-- The output buffer after the body. -/
def outProd (c : Dev nD) (i : grid1.Coords) (arg1 : Memref sig .tc .vmem S63x63 .f32) (harg1 : arg1.IsWhole) (arg2 : Memref sig .tc .vmem S8192x63 .f32) (harg2 : arg2.IsWhole) (arg3 : Memref sig .tc .vmem S63x8192 .f32) (harg3 : arg3.IsWhole) (x0 : Vec F S63x63 .f32) (x1 : Vec F S8192x63 .f32) : Vec F S63x8192 .f32 :=
  View.canon (runProd c i arg1 harg1 arg2 harg2 arg3 harg3 x0 x1).1

/-- The proof data: the arrays as the region finds them; the operands' buffers at their blocks, the output's at the
    product; the class invariant; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => outProd c (grid1.coords t) (ms1_0 t) (hs1_0 t) (ms1_1 t) (hs1_1 t) (ms1_2 t) (hs1_2 t) (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = outProd c (grid1.coords t) (ms1_0 t) (hs1_0 t) (ms1_1 t) (hs1_1 t) (ms1_2 t) (hs1_2 t) (iblk1 V c 0 t) (iblk1 V c 1 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

set_option maxHeartbeats 1000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  unfold outProd
  iintro ⟨HΦ, Ho, ⟨%d0, H0⟩, ⟨%d1, H1⟩, ⟨%d2, H2⟩⟩
  iapply ((runProd c (grid1.coords t) (ms1_0 t) (hs1_0 t) (ms1_1 t) (hs1_1 t) (ms1_2 t) (hs1_2 t) (iblk1 V c 0 t) (iblk1 V c 1 t)).2 Set.univ _)
  isplitl [H0]; · iexact H0
  isplitl [H1]; · iexact H1
  isplitl [H2]; · iexists _; iexact H2
  iintro ⟨H0, H1, ⟨%e2, H2⟩⟩
  isplitl [HΦ]; · iexact HΦ
  isplitl [Ho]; · iexact Ho
  isplitl [H0]; · iexact H0
  isplitl [H1]; · iexact H1
  unfold owns; iexists _; isplitr
  swap; · iexact H2
  ipureintro; exact View.read_writes_eq_canon _ _ _ (coverProd c _ _ _ _ _ _ _ _ _)

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.Bits.MainRun.lean ====
/-
  The whole run of @main: reshape the bias, region 0, reshape the activations, region 1. The buffer contents at
  each boundary are a fold from the launch memory: a host stretch applies its operations, a region leaves its
  output array at what its write-backs make of it and every other buffer as entered. Each region is entered from
  "every unscoped buffer at the boundary's contents" and left at the next boundary's; region 0's invariant names
  its accumulator, region 1 carries nothing. The run ends with every unscoped buffer at the last boundary's
  contents, from which the result array and the four argument arrays are read.
-/
import proofs.«132898_j52673478918325_1_alg».proof.Proof.Bits.R0Frame
import proofs.«132898_j52673478918325_1_alg».proof.Proof.Bits.R1Frame
import proofs.«132898_j52673478918325_1_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## No segment changes an argument array -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (by decide)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := (W4_arr m ρ c 0).trans (((dat1 (V3 m ρ) c).arrAt_in 0 rfl _).trans (A_eq1 (V3 m ρ) c 0))
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := (W2_arr m ρ c 1).trans (((dat0 (V1 m ρ) c).arrAt_in 1 rfl _).trans (A_eq0 (V1 m ρ) c 1))
    _ = W0 m ρ c (Proc.devRef .tc main_arg2) := StableHlo.after_of_writes_sub hostOps0 _ hostOps0_writes (by decide)
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

/-- The result array ends at what region 1's one write-back leaves. -/
theorem W4_main_v3 (c : Dev nD) : W4 m ρ c (Proc.devRef .tc main_v3) = (dat1 (V3 m ρ) c).arrAt 2 cfg1.N := W4_arr m ρ c 2

/-! ## The proof data family and the thread state -/

def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0: its arrays split out of the unscoped buffers and put back at the exit contents; the generator register into
    the invariant and out; the accumulator and the other scoped buffers enter at anything and leave at anything. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (V1 m ρ) c)
    unfold Pipeline.ΦA
    iintro ⟨Hp, -, Hr⟩
    isplitl [Hr]; · iexact Hr
    iexact Hp
  hout c := by
    rw [Pipeline.ownSems0_none]
    refine (hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: the same with the class invariant. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- Every weakly fair execution of @main from memory m with zero counters terminates, nothing faulting, and ends with
    the result array at what region 1's write-back leaves and each argument array as launched. -/
theorem run_main : θ_run defs (onTc (τ := τ) (main (F := F))) ⟨m, fun _ => 0, ρ⟩ (fun r => ∀ c : Dev nD,
      r.2.mem ((c.tc : Thread nD τ).loc main_v3) = (dat1 (V3 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v3 (by decide))).trans (W4_main_v3 m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_main m ρ)

end Cert.Kernel.Hand

end
-- ==== Proof.R0Base.lean ====
/-
  Region 0 (the K-blocked matmul with bias and relu), the part its three control cases share.
  The grid is 4 column tiles by 8 reduction steps; point t is column tile t / 8 at reduction step t % 8.
  The scratch accumulator is cleared at step 0, receives one partial product Label-block · W-blockᵀ per
  step, and at step 7 the output block max(acc + bias, 0) is stored; at every other step the output
  window is idle. Stated here: the entry contents V as a parameter, each window's block, the two
  branch conditions in closed form over the grid, where the output window is idle, the staging and
  scratch memrefs, and the class invariant with the scratch named.
-/
import proofs.«132898_j52673478918325_1_alg».proof.Proof.Gen.KernelIdeal.Launch
import proofs.«132898_j52673478918325_1_alg».proof.Proof.Gen.KernelIdeal.Skeleton
import proofs.«132898_j52673478918325_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when a region is entered
variable (V : (c : Dev nD) → (b : Ref sig .tc) → Buf (Elt F) ((c : Thread nD τ).loc b))

/-! ## The windows' blocks -/

/-- Window w's block at point t, cut out of its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The two branch conditions -/

/-- "This is reduction step 0": the accumulator is cleared. -/
abbrev isFirst (i : grid0.Coords) : Prop := (Scalar.cmpi .ne (Scalar.extui (Scalar.cmpi .eq (BitVec.ofNat 32 (i 1).val) 0#32)) 0#32) = 1#1
theorem isFirst_iff : ∀ t : Fin cfg0.N, isFirst (grid0.coords t) ↔ t.val % 8 = 0 :=
  (by decide +kernel : ∀ t : Fin grid0.N, isFirst (grid0.coords t) ↔ t.val % 8 = 0)

/-- "This is reduction step 7": the output block is stored. -/
abbrev isLast (i : grid0.Coords) : Prop := k0_cond2 i = 1#1
theorem isLast_iff : ∀ t : Fin cfg0.N, isLast (grid0.coords t) ↔ t.val % 8 = 7 :=
  (by decide +kernel : ∀ t : Fin grid0.N, isLast (grid0.coords t) ↔ t.val % 8 = 7)

/-! ## Where the windows are idle -/

theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
/-- Away from step 7 nothing is stored into the output window and the pipeline does not write it back. -/
theorem idle0_3 : ∀ t : Fin cfg0.N, ¬isLast (grid0.coords t) → cfg0.idle 3 (grid0.coords t) = true := by decide +kernel
theorem noFlush0_3 : ∀ t : Fin cfg0.N, ¬isLast (grid0.coords t) → (cfg0.win 3).flush t = false := by decide +kernel
theorem live0_3 : ∀ t : Fin cfg0.N, isLast (grid0.coords t) → cfg0.idle 3 (grid0.coords t) = false := by decide +kernel

/-! ## The memrefs the body is called with -/

abbrev ms0_0 (t : Fin cfg0.N) : Memref sig .tc .vmem S63x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S63x2048 .f32 := win0_3.stage (cfg0.slots t 3)
abbrev hs0_3 (t : Fin cfg0.N) : (ms0_3 t).IsWhole := hstage0_3 ((cfg0.slots t 3).cast nbuf0_3)
/-- The accumulator: a whole scoped buffer of the kernel's own. -/
abbrev accM : Memref sig .tc .vmem S63x2048 .f32 := Memref.whole cc0_scratch0
abbrev accV : View sig .tc .vmem S63x2048 .f32 := (accM).view
/-- One staging buffer of the output window, through which its contents are stated. -/
abbrev outV : View sig .tc .vmem S63x2048 .f32 := (Memref.whole cc0_stg3_0 : Memref sig .tc .vmem S63x2048 .f32).view

/-- The class invariant with the accumulator as a memref owned at some contents; the other scoped buffers
    (region 1's staging buffers) ride along unread. -/
def restOf0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f))

theorem PhiA0_eq (c : Dev nD) :
    (Pipeline.ΦA spec0 c : sProp 𝕄)
      = iprop(iprop((∃ d, owns (c : Thread nD τ) accM fullShare d) ∗ restOf0 (F := F) c) ∗ (∃ r, prngReg c r)) := by
  unfold Pipeline.ΦA restOf0; rw [scopedRest0_eq]; simp only [accM, owns_whole]; try rfl

end Cert.KernelIdeal.Hand

end
-- ==== Proof.R0RunFirst.lean ====
/-
  Region 0's body at reduction step 0: the accumulator, found at anything, is cleared and then receives the
  first partial product; the output window is not touched. The run yields the pieces the accumulator ends with.
-/
import proofs.«132898_j52673478918325_1_alg».proof.Proof.R0Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body at a point of step 0, on whole memrefs: the three input blocks at x0, x1, x2 and the idle output
    buffer at xi come back as they were; the accumulator, entered at anything, ends with the pieces LS written. -/
noncomputable def runFirst (c : Dev nD) (i : grid0.Coords) (arg2 : Memref sig .tc .vmem S63x1024 .f32) (harg2 : arg2.IsWhole) (arg3 : Memref sig .tc .vmem S2048x1024 .f32) (harg3 : arg3.IsWhole) (arg4 : Memref sig .tc .vmem S1x2048 .f32) (harg4 : arg4.IsWhole) (arg5 : Memref sig .tc .vmem S63x2048 .f32) (harg5 : arg5.IsWhole) (arg6 : Memref sig .tc .vmem S63x2048 .f32) (harg6 : arg6.IsWhole) (hc0 : isFirst i) (hc1 : ¬isLast i)
    (x0 : Vec F S63x1024 .f32) (x1 : Vec F S2048x1024 .f32) (x2 : Vec F S1x2048 .f32) :
    { LS : List (View.Piece (Elt F) S63x2048 .f32) //
      ∀ (xi : Vec F S63x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi ∗ (∃ f, arg6.view.loc (c : Thread nD τ) ↦[arg6.view.set]{fullShare} arg6.view.writes (Elt F) f LS)) -∗ K ⟨⟩))
          ⊢ wp frame (wpE (defs₀ (F := F)) Variants.none c none) E (cc0__mlp_relu_kernel i arg2 harg2 arg3 harg3 arg4 harg4 arg5 harg5 arg6 harg6) K } := by
  refine ⟨?_, fun xi E K => ?run⟩
  case run =>
    simp only [cc0__mlp_relu_kernel_eq_skeleton]; unfold cc0__mlp_relu_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.KernelIdeal.Hand

end
-- ==== Proof.R0RunMid.lean ====
/-
  Region 0's body at a reduction step strictly between 0 and 7: the accumulator, found at what the step before
  left, receives one more partial product; the output window is not touched.
-/
import proofs.«132898_j52673478918325_1_alg».proof.Proof.R0Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body at a middle step, on whole memrefs: inputs and the idle output buffer come back as they were; the
    accumulator, entered at xs, ends with the pieces LS written. -/
noncomputable def runMid (c : Dev nD) (i : grid0.Coords) (arg2 : Memref sig .tc .vmem S63x1024 .f32) (harg2 : arg2.IsWhole) (arg3 : Memref sig .tc .vmem S2048x1024 .f32) (harg3 : arg3.IsWhole) (arg4 : Memref sig .tc .vmem S1x2048 .f32) (harg4 : arg4.IsWhole) (arg5 : Memref sig .tc .vmem S63x2048 .f32) (harg5 : arg5.IsWhole) (arg6 : Memref sig .tc .vmem S63x2048 .f32) (harg6 : arg6.IsWhole) (hc0 : ¬isFirst i) (hc1 : ¬isLast i)
    (x0 : Vec F S63x1024 .f32) (x1 : Vec F S2048x1024 .f32) (x2 : Vec F S1x2048 .f32) (xs : Vec F S63x2048 .f32) :
    { LS : List (View.Piece (Elt F) S63x2048 .f32) //
      ∀ (xi : Vec F S63x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi ∗ (∃ f, arg6.view.loc (c : Thread nD τ) ↦[arg6.view.set]{fullShare} arg6.view.writes (Elt F) f LS)) -∗ K ⟨⟩))
          ⊢ wp frame (wpE (defs₀ (F := F)) Variants.none c none) E (cc0__mlp_relu_kernel i arg2 harg2 arg3 harg3 arg4 harg4 arg5 harg5 arg6 harg6) K } := by
  refine ⟨?_, fun xi E K => ?run⟩
  case run =>
    simp only [cc0__mlp_relu_kernel_eq_skeleton]; unfold cc0__mlp_relu_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.KernelIdeal.Hand

end
-- ==== Proof.R0RunLast.lean ====
/-
  Region 0's body at reduction step 7: the accumulator receives the last partial product, and the output
  block max(acc + bias, 0) is stored over the whole output buffer, found at anything.
-/
import proofs.«132898_j52673478918325_1_alg».proof.Proof.R0Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body at a point of step 7, on whole memrefs: the inputs come back as they were; the accumulator, entered
    at xs, ends with the pieces LS written and the output buffer with the pieces L3. -/
noncomputable def runLast (c : Dev nD) (i : grid0.Coords) (arg2 : Memref sig .tc .vmem S63x1024 .f32) (harg2 : arg2.IsWhole) (arg3 : Memref sig .tc .vmem S2048x1024 .f32) (harg3 : arg3.IsWhole) (arg4 : Memref sig .tc .vmem S1x2048 .f32) (harg4 : arg4.IsWhole) (arg5 : Memref sig .tc .vmem S63x2048 .f32) (harg5 : arg5.IsWhole) (arg6 : Memref sig .tc .vmem S63x2048 .f32) (harg6 : arg6.IsWhole) (hc0 : ¬isFirst i) (hc1 : isLast i)
    (x0 : Vec F S63x1024 .f32) (x1 : Vec F S2048x1024 .f32) (x2 : Vec F S1x2048 .f32) (xs : Vec F S63x2048 .f32) :
    Σ' (L3 : List (View.Piece (Elt F) S63x2048 .f32)), { LS : List (View.Piece (Elt F) S63x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc0__mlp_relu_kernel i arg2 harg2 arg3 harg3 arg4 harg4 arg5 harg5 arg6 harg6) K } := by
  refine ⟨?_, ?_, fun E K => ?run⟩
  case run =>
    simp only [cc0__mlp_relu_kernel_eq_skeleton]; unfold cc0__mlp_relu_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.KernelIdeal.Hand

end
-- ==== Proof.R0Frame.lean ====
/-
  Region 0's proof data and body obligation. What the accumulator holds after point t is a fold over the
  points: a point of reduction step 0 restarts it from its own partial product, any later step adds its partial
  product to what the point before left. The output buffer after a point of step 7 is max(acc + bias, 0) over
  the accumulator the point before left; at the other points the window is idle and its buffer is handed back
  as found. The region's invariant keeps the accumulator at the fold's value from the first point on.
-/
import proofs.«132898_j52673478918325_1_alg».proof.Proof.R0RunFirst
import proofs.«132898_j52673478918325_1_alg».proof.Proof.R0RunMid
import proofs.«132898_j52673478918325_1_alg».proof.Proof.R0RunLast

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The pieces each case writes cover their buffers -/

theorem coverFirst (c : Dev nD) (i : grid0.Coords) (arg2 : Memref sig .tc .vmem S63x1024 .f32) (harg2 : arg2.IsWhole) (arg3 : Memref sig .tc .vmem S2048x1024 .f32) (harg3 : arg3.IsWhole) (arg4 : Memref sig .tc .vmem S1x2048 .f32) (harg4 : arg4.IsWhole) (arg5 : Memref sig .tc .vmem S63x2048 .f32) (harg5 : arg5.IsWhole) (arg6 : Memref sig .tc .vmem S63x2048 .f32) (harg6 : arg6.IsWhole) (hc0 : isFirst i) (hc1 : ¬isLast i)
    (x0 : Vec F S63x1024 .f32) (x1 : Vec F S2048x1024 .f32) (x2 : Vec F S1x2048 .f32) (y : S63x2048.Idx) :
    ∃ pc ∈ (runFirst c i arg2 harg2 arg3 harg3 arg4 harg4 arg5 harg5 arg6 harg6 hc0 hc1 x0 x1 x2).1, y ∈ pc.1.set :=
  View.cover_of_tiledL (runFirst c i arg2 harg2 arg3 harg3 arg4 harg4 arg5 harg5 arg6 harg6 hc0 hc1 x0 x1 x2).1 S63x2048.size (by sl_kernel_rfl) y

theorem coverMid (c : Dev nD) (i : grid0.Coords) (arg2 : Memref sig .tc .vmem S63x1024 .f32) (harg2 : arg2.IsWhole) (arg3 : Memref sig .tc .vmem S2048x1024 .f32) (harg3 : arg3.IsWhole) (arg4 : Memref sig .tc .vmem S1x2048 .f32) (harg4 : arg4.IsWhole) (arg5 : Memref sig .tc .vmem S63x2048 .f32) (harg5 : arg5.IsWhole) (arg6 : Memref sig .tc .vmem S63x2048 .f32) (harg6 : arg6.IsWhole) (hc0 : ¬isFirst i) (hc1 : ¬isLast i)
    (x0 : Vec F S63x1024 .f32) (x1 : Vec F S2048x1024 .f32) (x2 : Vec F S1x2048 .f32) (xs : Vec F S63x2048 .f32) (y : S63x2048.Idx) :
    ∃ pc ∈ (runMid c i arg2 harg2 arg3 harg3 arg4 harg4 arg5 harg5 arg6 harg6 hc0 hc1 x0 x1 x2 xs).1, y ∈ pc.1.set :=
  View.cover_of_tiledL (runMid c i arg2 harg2 arg3 harg3 arg4 harg4 arg5 harg5 arg6 harg6 hc0 hc1 x0 x1 x2 xs).1 S63x2048.size (by sl_kernel_rfl) y

theorem coverLastOut (c : Dev nD) (i : grid0.Coords) (arg2 : Memref sig .tc .vmem S63x1024 .f32) (harg2 : arg2.IsWhole) (arg3 : Memref sig .tc .vmem S2048x1024 .f32) (harg3 : arg3.IsWhole) (arg4 : Memref sig .tc .vmem S1x2048 .f32) (harg4 : arg4.IsWhole) (arg5 : Memref sig .tc .vmem S63x2048 .f32) (harg5 : arg5.IsWhole) (arg6 : Memref sig .tc .vmem S63x2048 .f32) (harg6 : arg6.IsWhole) (hc0 : ¬isFirst i) (hc1 : isLast i)
    (x0 : Vec F S63x1024 .f32) (x1 : Vec F S2048x1024 .f32) (x2 : Vec F S1x2048 .f32) (xs : Vec F S63x2048 .f32) (y : S63x2048.Idx) :
    ∃ pc ∈ (runLast c i arg2 harg2 arg3 harg3 arg4 harg4 arg5 harg5 arg6 harg6 hc0 hc1 x0 x1 x2 xs).1, y ∈ pc.1.set :=
  View.cover_of_tiledL (runLast c i arg2 harg2 arg3 harg3 arg4 harg4 arg5 harg5 arg6 harg6 hc0 hc1 x0 x1 x2 xs).1 S63x2048.size (by sl_kernel_rfl) y

theorem coverLastAcc (c : Dev nD) (i : grid0.Coords) (arg2 : Memref sig .tc .vmem S63x1024 .f32) (harg2 : arg2.IsWhole) (arg3 : Memref sig .tc .vmem S2048x1024 .f32) (harg3 : arg3.IsWhole) (arg4 : Memref sig .tc .vmem S1x2048 .f32) (harg4 : arg4.IsWhole) (arg5 : Memref sig .tc .vmem S63x2048 .f32) (harg5 : arg5.IsWhole) (arg6 : Memref sig .tc .vmem S63x2048 .f32) (harg6 : arg6.IsWhole) (hc0 : ¬isFirst i) (hc1 : isLast i)
    (x0 : Vec F S63x1024 .f32) (x1 : Vec F S2048x1024 .f32) (x2 : Vec F S1x2048 .f32) (xs : Vec F S63x2048 .f32) (y : S63x2048.Idx) :
    ∃ pc ∈ (runLast c i arg2 harg2 arg3 harg3 arg4 harg4 arg5 harg5 arg6 harg6 hc0 hc1 x0 x1 x2 xs).2.1, y ∈ pc.1.set :=
  View.cover_of_tiledL (runLast c i arg2 harg2 arg3 harg3 arg4 harg4 arg5 harg5 arg6 harg6 hc0 hc1 x0 x1 x2 xs).2.1 S63x2048.size (by sl_kernel_rfl) y

/-! ## What each case leaves -/

/-- The accumulator after a point of step 0. -/
def accFirst (c : Dev nD) (i : grid0.Coords) (arg2 : Memref sig .tc .vmem S63x1024 .f32) (harg2 : arg2.IsWhole) (arg3 : Memref sig .tc .vmem S2048x1024 .f32) (harg3 : arg3.IsWhole) (arg4 : Memref sig .tc .vmem S1x2048 .f32) (harg4 : arg4.IsWhole) (arg5 : Memref sig .tc .vmem S63x2048 .f32) (harg5 : arg5.IsWhole) (arg6 : Memref sig .tc .vmem S63x2048 .f32) (harg6 : arg6.IsWhole) (hc0 : isFirst i) (hc1 : ¬isLast i)
    (x0 : Vec F S63x1024 .f32) (x1 : Vec F S2048x1024 .f32) (x2 : Vec F S1x2048 .f32) : Vec F S63x2048 .f32 :=
  View.canon (runFirst c i arg2 harg2 arg3 harg3 arg4 harg4 arg5 harg5 arg6 harg6 hc0 hc1 x0 x1 x2).1
/-- The accumulator after a middle step, over what the step before left. -/
def accMid (c : Dev nD) (i : grid0.Coords) (arg2 : Memref sig .tc .vmem S63x1024 .f32) (harg2 : arg2.IsWhole) (arg3 : Memref sig .tc .vmem S2048x1024 .f32) (harg3 : arg3.IsWhole) (arg4 : Memref sig .tc .vmem S1x2048 .f32) (harg4 : arg4.IsWhole) (arg5 : Memref sig .tc .vmem S63x2048 .f32) (harg5 : arg5.IsWhole) (arg6 : Memref sig .tc .vmem S63x2048 .f32) (harg6 : arg6.IsWhole) (hc0 : ¬isFirst i) (hc1 : ¬isLast i)
    (x0 : Vec F S63x1024 .f32) (x1 : Vec F S2048x1024 .f32) (x2 : Vec F S1x2048 .f32) (xs : Vec F S63x2048 .f32) : Vec F S63x2048 .f32 :=
  View.canon (runMid c i arg2 harg2 arg3 harg3 arg4 harg4 arg5 harg5 arg6 harg6 hc0 hc1 x0 x1 x2 xs).1
/-- The accumulator after step 7, -/
def accLast (c : Dev nD) (i : grid0.Coords) (arg2 : Memref sig .tc .vmem S63x1024 .f32) (harg2 : arg2.IsWhole) (arg3 : Memref sig .tc .vmem S2048x1024 .f32) (harg3 : arg3.IsWhole) (arg4 : Memref sig .tc .vmem S1x2048 .f32) (harg4 : arg4.IsWhole) (arg5 : Memref sig .tc .vmem S63x2048 .f32) (harg5 : arg5.IsWhole) (arg6 : Memref sig .tc .vmem S63x2048 .f32) (harg6 : arg6.IsWhole) (hc0 : ¬isFirst i) (hc1 : isLast i)
    (x0 : Vec F S63x1024 .f32) (x1 : Vec F S2048x1024 .f32) (x2 : Vec F S1x2048 .f32) (xs : Vec F S63x2048 .f32) : Vec F S63x2048 .f32 :=
  View.canon (runLast c i arg2 harg2 arg3 harg3 arg4 harg4 arg5 harg5 arg6 harg6 hc0 hc1 x0 x1 x2 xs).2.1
/-- and the output buffer there. -/
def outLast (c : Dev nD) (i : grid0.Coords) (arg2 : Memref sig .tc .vmem S63x1024 .f32) (harg2 : arg2.IsWhole) (arg3 : Memref sig .tc .vmem S2048x1024 .f32) (harg3 : arg3.IsWhole) (arg4 : Memref sig .tc .vmem S1x2048 .f32) (harg4 : arg4.IsWhole) (arg5 : Memref sig .tc .vmem S63x2048 .f32) (harg5 : arg5.IsWhole) (arg6 : Memref sig .tc .vmem S63x2048 .f32) (harg6 : arg6.IsWhole) (hc0 : ¬isFirst i) (hc1 : isLast i)
    (x0 : Vec F S63x1024 .f32) (x1 : Vec F S2048x1024 .f32) (x2 : Vec F S1x2048 .f32) (xs : Vec F S63x2048 .f32) : Vec F S63x2048 .f32 :=
  View.canon (runLast c i arg2 harg2 arg3 harg3 arg4 harg4 arg5 harg5 arg6 harg6 hc0 hc1 x0 x1 x2 xs).1

/-! ## The fold over the points -/

/-- Contents nothing reads: the accumulator before the first point. -/
abbrev noAcc : Vec F S63x2048 .f32 := accV.read (Elt F) accV.junk

/-- One point's effect on the accumulator, by the reduction step the point is at. -/
def stepAcc (c : Dev nD) (t : Fin cfg0.N) (prev : Vec F S63x2048 .f32) : Vec F S63x2048 .f32 :=
  if h0 : t.val % 8 = 0 then
    accFirst c (grid0.coords t) (ms0_0 t) (hs0_0 t) (ms0_1 t) (hs0_1 t) (ms0_2 t) (hs0_2 t) (ms0_3 t) (hs0_3 t) accM (Memref.isWhole_whole _) ((isFirst_iff t).mpr h0) (fun h => absurd ((isLast_iff t).mp h) (by omega)) (iblk0 V c 0 t) (iblk0 V c 1 t) (iblk0 V c 2 t)
  else if h7 : t.val % 8 = 7 then
    accLast c (grid0.coords t) (ms0_0 t) (hs0_0 t) (ms0_1 t) (hs0_1 t) (ms0_2 t) (hs0_2 t) (ms0_3 t) (hs0_3 t) accM (Memref.isWhole_whole _) (fun h => h0 ((isFirst_iff t).mp h)) ((isLast_iff t).mpr h7) (iblk0 V c 0 t) (iblk0 V c 1 t) (iblk0 V c 2 t) prev
  else
    accMid c (grid0.coords t) (ms0_0 t) (hs0_0 t) (ms0_1 t) (hs0_1 t) (ms0_2 t) (hs0_2 t) (ms0_3 t) (hs0_3 t) accM (Memref.isWhole_whole _) (fun h => h0 ((isFirst_iff t).mp h)) (fun h => h7 ((isLast_iff t).mp h)) (iblk0 V c 0 t) (iblk0 V c 1 t) (iblk0 V c 2 t) prev

/-- The accumulator after point n. -/
def accAt (c : Dev nD) : (n : ℕ) → n < cfg0.N → Vec F S63x2048 .f32
  | 0, hn => stepAcc V c ⟨0, hn⟩ noAcc
  | n + 1, hn => stepAcc V c ⟨n + 1, hn⟩ (accAt c n (Nat.lt_of_succ_lt hn))

/-- The accumulator as point t finds it. -/
def prevAcc (c : Dev nD) : (t : Fin cfg0.N) → Vec F S63x2048 .f32
  | ⟨0, _⟩ => noAcc
  | ⟨n + 1, hn⟩ => accAt V c n (Nat.lt_of_succ_lt hn)

theorem accAt_eq (c : Dev nD) (t : Fin cfg0.N) : accAt V c t.val t.isLt = stepAcc V c t (prevAcc V c t) := by
  obtain ⟨n, hn⟩ := t
  cases n <;> rfl

/-- The output buffer after point t: the stored block at step 7; elsewhere a placeholder nothing reads (the window is
    idle there, neither written back nor read at the next point). -/
def outAt (c : Dev nD) (t : Fin cfg0.N) : Vec F S63x2048 .f32 :=
  if h7 : t.val % 8 = 7 then
    outLast c (grid0.coords t) (ms0_0 t) (hs0_0 t) (ms0_1 t) (hs0_1 t) (ms0_2 t) (hs0_2 t) (ms0_3 t) (hs0_3 t) accM (Memref.isWhole_whole _) (fun h => absurd ((isFirst_iff t).mp h) (by omega)) ((isLast_iff t).mpr h7) (iblk0 V c 0 t) (iblk0 V c 1 t) (iblk0 V c 2 t) (prevAcc V c t)
  else prevAcc V c t

/-! ## The invariant -/

/-- Before the first point the class invariant (every scoped buffer at anything); from then on the accumulator at the
    fold's value, the other scoped buffers at anything, the generator register at some state. -/
def PhiS (c : Dev nD) : (n : ℕ) → n ≤ cfg0.N → sProp 𝕄
  | 0, _ => Pipeline.ΦA spec0 c
  | n + 1, hn => iprop(iprop(owns (c : Thread nD τ) accM fullShare (accAt V c n hn) ∗ restOf0 (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) accM fullShare (accAt V c n hn) ∗ restOf0 (F := F) c) ∗ (∃ r, prngReg c r)) := rfl

theorem PhiS_before (c : Dev nD) (t : Fin cfg0.N) (hz : t.val ≠ 0) :
    PhiS V c t.val (Nat.le_of_lt t.isLt) = iprop(iprop(owns (c : Thread nD τ) accM fullShare (prevAcc V c t) ∗ restOf0 (F := F) c) ∗ (∃ r, prngReg c r)) := by
  obtain ⟨n, hn⟩ := t
  cases n with
  | zero => exact absurd rfl hz
  | succ n => rfl

theorem PhiS_pos (c : Dev nD) (n : ℕ) (h : n ≤ cfg0.N) (hz : n ≠ 0) :
    PhiS V c n h = iprop(iprop(owns (c : Thread nD τ) accM fullShare (accAt V c (n - 1) (by omega)) ∗ restOf0 (F := F) c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outAt V c t
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = outAt V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

theorem leaves0_0 (c : Dev nD) (t : Fin cfg0.N) : (dat0 V c).leavesExact 0 t = owns (c : Thread nD τ) (ms0_0 t) fullShare (iblk0 V c 0 t) := by
  unfold Dat.leavesExact; rw [live0_0 t, after0_0]
theorem leaves0_1 (c : Dev nD) (t : Fin cfg0.N) : (dat0 V c).leavesExact 1 t = owns (c : Thread nD τ) (ms0_1 t) fullShare (iblk0 V c 1 t) := by
  unfold Dat.leavesExact; rw [live0_1 t, after0_1]
theorem leaves0_2 (c : Dev nD) (t : Fin cfg0.N) : (dat0 V c).leavesExact 2 t = owns (c : Thread nD τ) (ms0_2 t) fullShare (iblk0 V c 2 t) := by
  unfold Dat.leavesExact; rw [live0_2 t, after0_2]

set_option maxHeartbeats 4000000 in
/-- The body at any point, by the reduction step it is at. The invariant hands the body the accumulator (at anything at
    the very first point, else at what the point before left) and takes it back at the fold's value. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ, accAt_eq]
  rw [leaves0_0, leaves0_1, leaves0_2]
  by_cases h0 : t.val % 8 = 0
  · have hf : isFirst (grid0.coords t) := (isFirst_iff t).mpr h0
    have hnl : ¬isLast (grid0.coords t) := fun h => absurd ((isLast_iff t).mp h) (by omega)
    rw [Dat.leavesExact_idle (dat0 V c) 3 t (idle0_3 t hnl) (noFlush0_3 t hnl)]
    rw [show stepAcc V c t (prevAcc V c t) = accFirst c (grid0.coords t) (ms0_0 t) (hs0_0 t) (ms0_1 t) (hs0_1 t) (ms0_2 t) (hs0_2 t) (ms0_3 t) (hs0_3 t) accM (Memref.isWhole_whole _) hf hnl (iblk0 V c 0 t) (iblk0 V c 1 t) (iblk0 V c 2 t) from dif_pos h0]
    unfold accFirst
    by_cases hz : t.val = 0
    · rw [PhiS_castSucc V c t, PhiS_zero V c _ _ hz, PhiA0_eq]
      iintro ⟨⟨⟨HS, Hr⟩, Hg⟩, Ho, ⟨%d0, H0⟩, ⟨%d1, H1⟩, ⟨%d2, H2⟩, ⟨%d3, H3⟩⟩
      iapply ((runFirst c (grid0.coords t) (ms0_0 t) (hs0_0 t) (ms0_1 t) (hs0_1 t) (ms0_2 t) (hs0_2 t) (ms0_3 t) (hs0_3 t) accM (Memref.isWhole_whole _) hf hnl (iblk0 V c 0 t) (iblk0 V c 1 t) (iblk0 V c 2 t)).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hr Hg]
      · isplitl [HS Hr]
        · isplitl [HS]
          · unfold owns; iexists _; isplitr
            swap; · iexact HS
            ipureintro; exact View.read_writes_eq_canon _ _ _ (coverFirst c _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3
    · rw [PhiS_castSucc V c t, PhiS_before V c t hz]
      iintro ⟨⟨⟨HS, Hr⟩, Hg⟩, Ho, ⟨%d0, H0⟩, ⟨%d1, H1⟩, ⟨%d2, H2⟩, ⟨%d3, H3⟩⟩
      iapply ((runFirst c (grid0.coords t) (ms0_0 t) (hs0_0 t) (ms0_1 t) (hs0_1 t) (ms0_2 t) (hs0_2 t) (ms0_3 t) (hs0_3 t) accM (Memref.isWhole_whole _) hf hnl (iblk0 V c 0 t) (iblk0 V c 1 t) (iblk0 V c 2 t)).2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hr Hg]
      · isplitl [HS Hr]
        · isplitl [HS]
          · unfold owns; iexists _; isplitr
            swap; · iexact HS
            ipureintro; exact View.read_writes_eq_canon _ _ _ (coverFirst c _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3
  · have hnf : ¬isFirst (grid0.coords t) := fun h => h0 ((isFirst_iff t).mp h)
    have hz : t.val ≠ 0 := fun h => h0 (by rw [h])
    by_cases h7 : t.val % 8 = 7
    · have hl : isLast (grid0.coords t) := (isLast_iff t).mpr h7
      rw [show (dat0 V c).leavesExact 3 t = owns (c : Thread nD τ) (ms0_3 t) fullShare ((dat0 V c).after 3 t) from by
        unfold Dat.leavesExact; rw [live0_3 t hl], after0_3]
      rw [show outAt V c t = outLast c (grid0.coords t) (ms0_0 t) (hs0_0 t) (ms0_1 t) (hs0_1 t) (ms0_2 t) (hs0_2 t) (ms0_3 t) (hs0_3 t) accM (Memref.isWhole_whole _) hnf hl (iblk0 V c 0 t) (iblk0 V c 1 t) (iblk0 V c 2 t) (prevAcc V c t) from dif_pos h7]
      rw [show stepAcc V c t (prevAcc V c t) = accLast c (grid0.coords t) (ms0_0 t) (hs0_0 t) (ms0_1 t) (hs0_1 t) (ms0_2 t) (hs0_2 t) (ms0_3 t) (hs0_3 t) accM (Memref.isWhole_whole _) hnf hl (iblk0 V c 0 t) (iblk0 V c 1 t) (iblk0 V c 2 t) (prevAcc V c t) from (dif_neg h0).trans (dif_pos h7)]
      unfold accLast outLast
      rw [PhiS_castSucc V c t, PhiS_before V c t hz]
      iintro ⟨⟨⟨HS, Hr⟩, Hg⟩, Ho, ⟨%d0, H0⟩, ⟨%d1, H1⟩, ⟨%d2, H2⟩, ⟨%d3, H3⟩⟩
      iapply ((runLast c (grid0.coords t) (ms0_0 t) (hs0_0 t) (ms0_1 t) (hs0_1 t) (ms0_2 t) (hs0_2 t) (ms0_3 t) (hs0_3 t) accM (Memref.isWhole_whole _) hnf hl (iblk0 V c 0 t) (iblk0 V c 1 t) (iblk0 V c 2 t) (prevAcc V c t)).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hr Hg]
      · isplitl [HS Hr]
        · isplitl [HS]
          · unfold owns; iexists _; isplitr
            swap; · iexact HS
            ipureintro; exact View.read_writes_eq_canon _ _ _ (coverLastAcc c _ _ _ _ _ _ _ _ _ _ _ _ _ _ _ _ _)
          iexact Hr
        iexact Hg
      isplitl [Ho]; · iexact Ho
      isplitl [H0]; · iexact H0
      isplitl [H1]; · iexact H1
      isplitl [H2]; · iexact H2
      unfold owns; iexists _; isplitr
      swap; · iexact H3
      ipureintro; exact View.read_writes_eq_canon _ _ _ (coverLastOut c _ _ _ _ _ _ _ _ _ _ _ _ _ _ _ _ _)
    · have hnl : ¬isLast (grid0.coords t) := fun h => h7 ((isLast_iff t).mp h)
      rw [Dat.leavesExact_idle (dat0 V c) 3 t (idle0_3 t hnl) (noFlush0_3 t hnl)]
      rw [show stepAcc V c t (prevAcc V c t) = accMid c (grid0.coords t) (ms0_0 t) (hs0_0 t) (ms0_1 t) (hs0_1 t) (ms0_2 t) (hs0_2 t) (ms0_3 t) (hs0_3 t) accM (Memref.isWhole_whole _) hnf hnl (iblk0 V c 0 t) (iblk0 V c 1 t) (iblk0 V c 2 t) (prevAcc V c t) from (dif_neg h0).trans (dif_neg h7)]
      unfold accMid
      rw [PhiS_castSucc V c t, PhiS_before V c t hz]
      iintro ⟨⟨⟨HS, Hr⟩, Hg⟩, Ho, ⟨%d0, H0⟩, ⟨%d1, H1⟩, ⟨%d2, H2⟩, ⟨%d3, H3⟩⟩
      iapply ((runMid c (grid0.coords t) (ms0_0 t) (hs0_0 t) (ms0_1 t) (hs0_1 t) (ms0_2 t) (hs0_2 t) (ms0_3 t) (hs0_3 t) accM (Memref.isWhole_whole _) hnf hnl (iblk0 V c 0 t) (iblk0 V c 1 t) (iblk0 V c 2 t) (prevAcc V c t)).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hr Hg]
      · isplitl [HS Hr]
        · isplitl [HS]
          · unfold owns; iexists _; isplitr
            swap; · iexact HS
            ipureintro; exact View.read_writes_eq_canon _ _ _ (coverMid c _ _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## In and out of the region -/

theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the class invariant back: the accumulator's value is forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 32 := N_0; omega), PhiA0_eq]
  iintro ⟨⟨HS, Hr⟩, Hg⟩
  isplitl [HS Hr]
  · isplitl [HS]
    · iexists _; iexact HS
    iexact Hr
  iexact Hg

end Cert.KernelIdeal.Hand

end
-- ==== Proof.R1Frame.lean ====
/-
  Region 1 (the contraction of S with the reshaped activations): one grid point, both operands staged whole,
  the product stored over the whole output buffer. Stated at a parameter V, the buffer contents when the region
  is entered: the windows' blocks, the body's run with the pieces the output ends with, the proof data at the
  class invariant (nothing is carried), and the body obligation.
-/
import proofs.«132898_j52673478918325_1_alg».proof.Proof.Gen.KernelIdeal.Launch
import proofs.«132898_j52673478918325_1_alg».proof.Proof.Gen.KernelIdeal.Skeleton
import proofs.«132898_j52673478918325_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at the one point, cut out of its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev ms1_0 (t : Fin cfg1.N) : Memref sig .tc .vmem S63x63 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x63 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S63x8192 .f32 := win1_2.stage (cfg1.slots t 2)
abbrev hs1_2 (t : Fin cfg1.N) : (ms1_2 t).IsWhole := hstage1_2 ((cfg1.slots t 2).cast nbuf1_2)

set_option maxHeartbeats 1000000 in
/-- The body on whole memrefs: the operands at x0 (S) and x1 (the reshaped activations) come back as they were; the
    output buffer, entered at anything, ends with the pieces L written. -/
noncomputable def runProd (c : Dev nD) (i : grid1.Coords) (arg1 : Memref sig .tc .vmem S63x63 .f32) (harg1 : arg1.IsWhole) (arg2 : Memref sig .tc .vmem S8192x63 .f32) (harg2 : arg2.IsWhole) (arg3 : Memref sig .tc .vmem S63x8192 .f32) (harg3 : arg3.IsWhole) (x0 : Vec F S63x63 .f32) (x1 : Vec F S8192x63 .f32) :
    { L : List (View.Piece (Elt F) S63x8192 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L)) -∗ K ⟨⟩))
          ⊢ wp frame (wpE (defs₀ (F := F)) Variants.none c none) E (cc1__s_ml_kernel i arg1 harg1 arg2 harg2 arg3 harg3) K } := by
  refine ⟨?_, fun E K => ?run⟩
  case run =>
    simp only [cc1__s_ml_kernel_eq_skeleton]; unfold cc1__s_ml_kernel_skel
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    iexists _; iexact H2

theorem coverProd (c : Dev nD) (i : grid1.Coords) (arg1 : Memref sig .tc .vmem S63x63 .f32) (harg1 : arg1.IsWhole) (arg2 : Memref sig .tc .vmem S8192x63 .f32) (harg2 : arg2.IsWhole) (arg3 : Memref sig .tc .vmem S63x8192 .f32) (harg3 : arg3.IsWhole) (x0 : Vec F S63x63 .f32) (x1 : Vec F S8192x63 .f32) (y : S63x8192.Idx) :
    ∃ pc ∈ (runProd c i arg1 harg1 arg2 harg2 arg3 harg3 x0 x1).1, y ∈ pc.1.set :=
  View.cover_of_tiledL (runProd c i arg1 harg1 arg2 harg2 arg3 harg3 x0 x1).1 S63x8192.size (by sl_kernel_rfl) y

/-- The output buffer after the body. -/
def outProd (c : Dev nD) (i : grid1.Coords) (arg1 : Memref sig .tc .vmem S63x63 .f32) (harg1 : arg1.IsWhole) (arg2 : Memref sig .tc .vmem S8192x63 .f32) (harg2 : arg2.IsWhole) (arg3 : Memref sig .tc .vmem S63x8192 .f32) (harg3 : arg3.IsWhole) (x0 : Vec F S63x63 .f32) (x1 : Vec F S8192x63 .f32) : Vec F S63x8192 .f32 :=
  View.canon (runProd c i arg1 harg1 arg2 harg2 arg3 harg3 x0 x1).1

/-- The proof data: the arrays as the region finds them; the operands' buffers at their blocks, the output's at the
    product; the class invariant; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => outProd c (grid1.coords t) (ms1_0 t) (hs1_0 t) (ms1_1 t) (hs1_1 t) (ms1_2 t) (hs1_2 t) (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = outProd c (grid1.coords t) (ms1_0 t) (hs1_0 t) (ms1_1 t) (hs1_1 t) (ms1_2 t) (hs1_2 t) (iblk1 V c 0 t) (iblk1 V c 1 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

set_option maxHeartbeats 1000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  unfold outProd
  iintro ⟨HΦ, Ho, ⟨%d0, H0⟩, ⟨%d1, H1⟩, ⟨%d2, H2⟩⟩
  iapply ((runProd c (grid1.coords t) (ms1_0 t) (hs1_0 t) (ms1_1 t) (hs1_1 t) (ms1_2 t) (hs1_2 t) (iblk1 V c 0 t) (iblk1 V c 1 t)).2 Set.univ _)
  isplitl [H0]; · iexact H0
  isplitl [H1]; · iexact H1
  isplitl [H2]; · iexists _; iexact H2
  iintro ⟨H0, H1, ⟨%e2, H2⟩⟩
  isplitl [HΦ]; · iexact HΦ
  isplitl [Ho]; · iexact Ho
  isplitl [H0]; · iexact H0
  isplitl [H1]; · iexact H1
  unfold owns; iexists _; isplitr
  swap; · iexact H2
  ipureintro; exact View.read_writes_eq_canon _ _ _ (coverProd c _ _ _ _ _ _ _ _ _)

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.MainRun.lean ====
/-
  The whole run of @main: reshape the bias, region 0, reshape the activations, region 1. The buffer contents at
  each boundary are a fold from the launch memory: a host stretch applies its operations, a region leaves its
  output array at what its write-backs make of it and every other buffer as entered. Each region is entered from
  "every unscoped buffer at the boundary's contents" and left at the next boundary's; region 0's invariant names
  its accumulator, region 1 carries nothing. The run ends with every unscoped buffer at the last boundary's
  contents, from which the result array and the four argument arrays are read.
-/
import proofs.«132898_j52673478918325_1_alg».proof.Proof.R0Frame
import proofs.«132898_j52673478918325_1_alg».proof.Proof.R1Frame
import proofs.«132898_j52673478918325_1_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## No segment changes an argument array -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (by decide)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := (W4_arr m ρ c 0).trans (((dat1 (V3 m ρ) c).arrAt_in 0 rfl _).trans (A_eq1 (V3 m ρ) c 0))
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := (W2_arr m ρ c 1).trans (((dat0 (V1 m ρ) c).arrAt_in 1 rfl _).trans (A_eq0 (V1 m ρ) c 1))
    _ = W0 m ρ c (Proc.devRef .tc main_arg2) := StableHlo.after_of_writes_sub hostOps0 _ hostOps0_writes (by decide)
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

/-- The result array ends at what region 1's one write-back leaves. -/
theorem W4_main_v3 (c : Dev nD) : W4 m ρ c (Proc.devRef .tc main_v3) = (dat1 (V3 m ρ) c).arrAt 2 cfg1.N := W4_arr m ρ c 2

/-! ## The proof data family and the thread state -/

def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0: its arrays split out of the unscoped buffers and put back at the exit contents; the generator register into
    the invariant and out; the accumulator and the other scoped buffers enter at anything and leave at anything. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (V1 m ρ) c)
    unfold Pipeline.ΦA
    iintro ⟨Hp, -, Hr⟩
    isplitl [Hr]; · iexact Hr
    iexact Hp
  hout c := by
    rw [Pipeline.ownSems0_none]
    refine (hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: the same with the class invariant. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- Every weakly fair execution of @main from memory m with zero counters terminates, nothing faulting, and ends with
    the result array at what region 1's write-back leaves and each argument array as launched. -/
theorem run_main : θ_run defs (onTc (τ := τ) (main (F := F))) ⟨m, fun _ => 0, ρ⟩ (fun r => ∀ c : Dev nD,
      r.2.mem ((c.tc : Thread nD τ).loc main_v3) = (dat1 (V3 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v3 (by decide))).trans (W4_main_v3 m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_main m ρ)

end Cert.KernelIdeal.Hand

end
-- ==== Proof.Pieces.lean ====
/-
  What each control case leaves, as the body's arithmetic over its loads. Every store of region 0 and of region 1
  writes a whole buffer through the rectangle at offset zero, and every load reads a whole buffer the same way, so
  the canon of a case's pieces is the stored payload at the loaded contents themselves: at step 0 the accumulator
  is the first partial product over the cleared accumulator; at a later step it is the partial product over what
  the step before left; at step 7 the output is max(acc + bias, 0) over the accumulator just updated; region 1's
  output is the product of its two operands.
-/
import proofs.«132898_j52673478918325_1_alg».proof.Proof.R0Frame
import proofs.«132898_j52673478918325_1_alg».proof.Proof.R1Frame
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem zero2 : (![0, 0] : Fin 2 → Nat) = fun _ => 0 := funext fun a => by fin_cases a <;> rfl

theorem accMid_eq (c : Dev nD) (i : grid0.Coords) (arg2 : Memref sig .tc .vmem S63x1024 .f32) (harg2 : arg2.IsWhole) (arg3 : Memref sig .tc .vmem S2048x1024 .f32) (harg3 : arg3.IsWhole) (arg4 : Memref sig .tc .vmem S1x2048 .f32) (harg4 : arg4.IsWhole) (arg5 : Memref sig .tc .vmem S63x2048 .f32) (harg5 : arg5.IsWhole) (arg6 : Memref sig .tc .vmem S63x2048 .f32) (harg6 : arg6.IsWhole) (hc0 : ¬isFirst i) (hc1 : ¬isLast i) (x0 : Vec F S63x1024 .f32) (x1 : Vec F S2048x1024 .f32) (x2 : Vec F S1x2048 .f32) (xs : Vec F S63x2048 .f32) :
    accMid c i arg2 harg2 arg3 harg3 arg4 harg4 arg5 harg5 arg6 harg6 hc0 hc1 x0 x1 x2 xs = k0_pay2 x0 x1 xs := by
  unfold accMid
  unfold runMid
  dsimp only
  try sl_unfold_words
  rw [View.canon_unit_zero zero2]
  simp only [View.readAt_eq_ld, harg2.read_unread, harg3.read_unread, harg4.read_unread, harg6.read_unread,
    View.ld_unit_zero (S := S63x1024) zero2, View.ld_unit_zero (S := S2048x1024) zero2, View.ld_unit_zero (S := S1x2048) zero2, View.ld_unit_zero (S := S63x2048) zero2]

theorem accLast_eq (c : Dev nD) (i : grid0.Coords) (arg2 : Memref sig .tc .vmem S63x1024 .f32) (harg2 : arg2.IsWhole) (arg3 : Memref sig .tc .vmem S2048x1024 .f32) (harg3 : arg3.IsWhole) (arg4 : Memref sig .tc .vmem S1x2048 .f32) (harg4 : arg4.IsWhole) (arg5 : Memref sig .tc .vmem S63x2048 .f32) (harg5 : arg5.IsWhole) (arg6 : Memref sig .tc .vmem S63x2048 .f32) (harg6 : arg6.IsWhole) (hc0 : ¬isFirst i) (hc1 : isLast i) (x0 : Vec F S63x1024 .f32) (x1 : Vec F S2048x1024 .f32) (x2 : Vec F S1x2048 .f32) (xs : Vec F S63x2048 .f32) :
    accLast c i arg2 harg2 arg3 harg3 arg4 harg4 arg5 harg5 arg6 harg6 hc0 hc1 x0 x1 x2 xs = k0_pay2 x0 x1 xs := by
  unfold accLast
  unfold runLast
  dsimp only
  try sl_unfold_words
  rw [View.canon_unit_zero zero2]
  simp only [View.readAt_eq_ld, harg2.read_unread, harg3.read_unread, harg4.read_unread, harg6.read_unread,
    View.ld_unit_zero (S := S63x1024) zero2, View.ld_unit_zero (S := S2048x1024) zero2, View.ld_unit_zero (S := S1x2048) zero2, View.ld_unit_zero (S := S63x2048) zero2]

theorem outLast_eq (c : Dev nD) (i : grid0.Coords) (arg2 : Memref sig .tc .vmem S63x1024 .f32) (harg2 : arg2.IsWhole) (arg3 : Memref sig .tc .vmem S2048x1024 .f32) (harg3 : arg3.IsWhole) (arg4 : Memref sig .tc .vmem S1x2048 .f32) (harg4 : arg4.IsWhole) (arg5 : Memref sig .tc .vmem S63x2048 .f32) (harg5 : arg5.IsWhole) (arg6 : Memref sig .tc .vmem S63x2048 .f32) (harg6 : arg6.IsWhole) (hc0 : ¬isFirst i) (hc1 : isLast i) (x0 : Vec F S63x1024 .f32) (x1 : Vec F S2048x1024 .f32) (x2 : Vec F S1x2048 .f32) (xs : Vec F S63x2048 .f32) :
    outLast c i arg2 harg2 arg3 harg3 arg4 harg4 arg5 harg5 arg6 harg6 hc0 hc1 x0 x1 x2 xs = k0_pay3 (k0_pay2 x0 x1 xs) x2 := by
  unfold outLast
  unfold runLast
  dsimp only
  try sl_unfold_words
  rw [View.canon_unit_zero zero2, View.readCov_unit_zero (S := S63x2048) _ zero2]
  simp only [View.readAt_eq_ld, harg2.read_unread, harg3.read_unread, harg4.read_unread, harg6.read_unread,
    View.ld_unit_zero (S := S63x1024) zero2, View.ld_unit_zero (S := S2048x1024) zero2, View.ld_unit_zero (S := S1x2048) zero2, View.ld_unit_zero (S := S63x2048) zero2]

theorem accFirst_eq (c : Dev nD) (i : grid0.Coords) (arg2 : Memref sig .tc .vmem S63x1024 .f32) (harg2 : arg2.IsWhole) (arg3 : Memref sig .tc .vmem S2048x1024 .f32) (harg3 : arg3.IsWhole) (arg4 : Memref sig .tc .vmem S1x2048 .f32) (harg4 : arg4.IsWhole) (arg5 : Memref sig .tc .vmem S63x2048 .f32) (harg5 : arg5.IsWhole) (arg6 : Memref sig .tc .vmem S63x2048 .f32) (harg6 : arg6.IsWhole) (hc0 : isFirst i) (hc1 : ¬isLast i) (x0 : Vec F S63x1024 .f32) (x1 : Vec F S2048x1024 .f32) (x2 : Vec F S1x2048 .f32) :
    accFirst c i arg2 harg2 arg3 harg3 arg4 harg4 arg5 harg5 arg6 harg6 hc0 hc1 x0 x1 x2 = k0_pay2 x0 x1 (k0_pay1 (F := F)) := by
  unfold accFirst
  unfold runFirst
  dsimp only
  try sl_unfold_words
  rw [View.canon_cons_unit_zero (S := S63x2048) zero2, View.readCov_unit_zero (S := S63x2048) _ zero2]
  simp only [View.readAt_eq_ld, harg2.read_unread, harg3.read_unread, harg4.read_unread, harg6.read_unread,
    View.ld_unit_zero (S := S63x1024) zero2, View.ld_unit_zero (S := S2048x1024) zero2, View.ld_unit_zero (S := S1x2048) zero2, View.ld_unit_zero (S := S63x2048) zero2]

theorem outProd_eq (c : Dev nD) (i : grid1.Coords) (arg1 : Memref sig .tc .vmem S63x63 .f32) (harg1 : arg1.IsWhole) (arg2 : Memref sig .tc .vmem S8192x63 .f32) (harg2 : arg2.IsWhole) (arg3 : Memref sig .tc .vmem S63x8192 .f32) (harg3 : arg3.IsWhole) (x0 : Vec F S63x63 .f32) (x1 : Vec F S8192x63 .f32) :
    outProd c i arg1 harg1 arg2 harg2 arg3 harg3 x0 x1 = k1_pay1 x0 x1 := by
  unfold outProd
  unfold runProd
  dsimp only
  try sl_unfold_words
  rw [View.canon_unit_zero zero2]
  simp only [View.readAt_eq_ld, harg1.read_unread, harg2.read_unread,
    View.ld_unit_zero (S := S63x63) zero2, View.ld_unit_zero (S := S8192x63) zero2]

end Cert.KernelIdeal.Hand

end
-- ==== Proof.Payload.lean ====
/-
  The payloads read at an index, at the ideal values. A change of float format is the identity and a cast to
  the same shape does nothing, so: the cleared accumulator is 0; one reduction step at entry (r, q) is the old
  entry plus the sum over the 1024 columns kk of the step of Label-block (r, kk) times W-block (q, kk); the
  stored output entry is max(acc (r, q) + bias (0, q), 0); region 1's entry is the sum over the contraction of
  S times the reshaped activations, kept over the contraction's own index type, which the reference shares.
-/
import proofs.«132898_j52673478918325_1_alg».proof.Proof.Gen.KernelIdeal.Skeleton
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The K-step's operand indices -/

theorem lhsK_0 (i : S63x2048.Idx) (q : dot_S63x1024_S2048x1024_S63x2048_1_1_0_0_n_n.contr.Idx) :
    (dot_S63x1024_S2048x1024_S63x2048_1_1_0_0_n_n.lhsIdx i q 0).val = (i 0).val := by
  unfold DotDims.lhsIdx
  rw [dif_neg (show ¬(0 : Fin S63x1024.rank) ∈ dot_S63x1024_S2048x1024_S63x2048_1_1_0_0_n_n.lhsBatch by decide), dif_pos (show (0 : Fin S63x1024.rank) ∈ dot_S63x1024_S2048x1024_S63x2048_1_1_0_0_n_n.lhsNonContracting by decide)]
  rfl
theorem lhsK_1 (i : S63x2048.Idx) (q : dot_S63x1024_S2048x1024_S63x2048_1_1_0_0_n_n.contr.Idx) :
    (dot_S63x1024_S2048x1024_S63x2048_1_1_0_0_n_n.lhsIdx i q 1).val = (q ⟨0, by decide⟩).val :=
  dot_S63x1024_S2048x1024_S63x2048_1_1_0_0_n_n.lhsIdx_val_of_single rfl i q
theorem rhsK_0 (i : S63x2048.Idx) (q : dot_S63x1024_S2048x1024_S63x2048_1_1_0_0_n_n.contr.Idx) :
    (dot_S63x1024_S2048x1024_S63x2048_1_1_0_0_n_n.rhsIdx i q 0).val = (i 1).val := by
  unfold DotDims.rhsIdx
  rw [dif_neg (show ¬(0 : Fin S2048x1024.rank) ∈ dot_S63x1024_S2048x1024_S63x2048_1_1_0_0_n_n.rhsBatch by decide), dif_pos (show (0 : Fin S2048x1024.rank) ∈ dot_S63x1024_S2048x1024_S63x2048_1_1_0_0_n_n.rhsNonContracting by decide)]
  rfl
theorem rhsK_1 (i : S63x2048.Idx) (q : dot_S63x1024_S2048x1024_S63x2048_1_1_0_0_n_n.contr.Idx) :
    (dot_S63x1024_S2048x1024_S63x2048_1_1_0_0_n_n.rhsIdx i q 1).val = (q ⟨0, by decide⟩).val :=
  dot_S63x1024_S2048x1024_S63x2048_1_1_0_0_n_n.rhsIdx_val_of_single rfl i q

/-- Row r = i 0 of the Label block at column kk, -/
abbrev lidxK (i : S63x2048.Idx) (k : Fin 1024) : S63x1024.Idx := fun a => match a with
  | ⟨0, _⟩ => ⟨(i 0).val, (i 0).isLt⟩
  | ⟨1, _⟩ => ⟨k.val, k.isLt⟩
/-- and row q = i 1 of the W block at column kk. -/
abbrev ridxK (i : S63x2048.Idx) (k : Fin 1024) : S2048x1024.Idx := fun a => match a with
  | ⟨0, _⟩ => ⟨(i 1).val, (i 1).isLt⟩
  | ⟨1, _⟩ => ⟨k.val, k.isLt⟩
/-- The bias block's entry under column q = i 1. -/
abbrev bidxK (i : S63x2048.Idx) : S1x2048.Idx := fun a => match a with
  | ⟨0, _⟩ => ⟨0, Nat.one_pos⟩
  | ⟨1, _⟩ => ⟨(i 1).val, (i 1).isLt⟩

/-! ## The payloads -/

theorem pay1_apply (i : S63x2048.Idx) : k0_pay1 (F := Ideal) i = 0 := by
  unfold k0_pay1
  simp only [shapeCast_self]
  exact Ideal.ofBits_zero_f32

theorem pay2_apply (x0 : Vec Ideal S63x1024 .f32) (x1 : Vec Ideal S2048x1024 .f32) (xs : Vec Ideal S63x2048 .f32) (i : S63x2048.Idx) :
    k0_pay2 (F := Ideal) x0 x1 xs i = xs i + ∑ k : Fin 1024, x0 (lidxK i k) * x1 (ridxK i k) := by
  unfold k0_pay2
  simp only [shapeCast_self]
  refine (congrArg (xs i + ·) (Ideal.matmul_constant_zero_apply dot_S63x1024_S2048x1024_S63x2048_1_1_0_0_n_n none _ _ i)).trans ?_
  refine congrArg (xs i + ·) ?_
  rw [← Equiv.sum_comp (ValueIdx.contrEquiv1 dot_S63x1024_S2048x1024_S63x2048_1_1_0_0_n_n 1024 rfl rfl).symm]
  refine Finset.sum_congr rfl fun k _ => ?_
  have hk := ValueIdx.contrEquiv1_symm_val dot_S63x1024_S2048x1024_S63x2048_1_1_0_0_n_n 1024 rfl rfl k
  have el : dot_S63x1024_S2048x1024_S63x2048_1_1_0_0_n_n.lhsIdx i ((ValueIdx.contrEquiv1 dot_S63x1024_S2048x1024_S63x2048_1_1_0_0_n_n 1024 rfl rfl).symm k) = lidxK i k := funext fun a => Fin.ext (by
    match a with
    | ⟨0, _⟩ => exact lhsK_0 _ _
    | ⟨1, _⟩ => exact (lhsK_1 _ _).trans hk)
  have er : dot_S63x1024_S2048x1024_S63x2048_1_1_0_0_n_n.rhsIdx i ((ValueIdx.contrEquiv1 dot_S63x1024_S2048x1024_S63x2048_1_1_0_0_n_n 1024 rfl rfl).symm k) = ridxK i k := funext fun a => Fin.ext (by
    match a with
    | ⟨0, _⟩ => exact rhsK_0 _ _
    | ⟨1, _⟩ => exact (rhsK_1 _ _).trans hk)
  show x0 (dot_S63x1024_S2048x1024_S63x2048_1_1_0_0_n_n.lhsIdx i ((ValueIdx.contrEquiv1 dot_S63x1024_S2048x1024_S63x2048_1_1_0_0_n_n 1024 rfl rfl).symm k)) * x1 (dot_S63x1024_S2048x1024_S63x2048_1_1_0_0_n_n.rhsIdx i ((ValueIdx.contrEquiv1 dot_S63x1024_S2048x1024_S63x2048_1_1_0_0_n_n 1024 rfl rfl).symm k)) = _
  rw [el, er]

theorem pay3_apply (a : Vec Ideal S63x2048 .f32) (x2 : Vec Ideal S1x2048 .f32) (i : S63x2048.Idx) :
    k0_pay3 (F := Ideal) a x2 i = max (a i + x2 (bidxK i)) (FloatOps.ofBits (F := Ideal) .f32 0x00000000#32) := by
  unfold k0_pay3
  simp only [shapeCast_self]
  have hb : broadcastTo S63x2048 x2 broadcasts_S1x2048_S63x2048 i = x2 (bidxK i) :=
    broadcastTo_apply x2 broadcasts_S1x2048_S63x2048 i (bidxK i) (fun a => match a with
      | ⟨0, _⟩ => by show 0 = if (1 : Nat) = 1 then 0 else _; rw [if_pos rfl]
      | ⟨1, _⟩ => by show (i 1).val = if (2048 : Nat) = 1 then 0 else (i 1).val; rw [if_neg (by decide)])
  show max (a i + broadcastTo S63x2048 x2 broadcasts_S1x2048_S63x2048 i) _ = _
  rw [hb]
  rfl

/-- Region 1's product, over the contraction's own index type. -/
theorem prod_apply (x0 : Vec Ideal S63x63 .f32) (x1 : Vec Ideal S8192x63 .f32) (i : S63x8192.Idx) :
    k1_pay1 (F := Ideal) x0 x1 i = ∑ k : dot_S63x63_S8192x63_S63x8192_1_1_0_0_n_n.contr.Idx, x0 (dot_S63x63_S8192x63_S63x8192_1_1_0_0_n_n.lhsIdx i k) * x1 (dot_S63x63_S8192x63_S63x8192_1_1_0_0_n_n.rhsIdx i k) := by
  unfold k1_pay1
  simp only [shapeCast_self]
  exact Ideal.matmul_constant_zero_apply dot_S63x63_S8192x63_S63x8192_1_1_0_0_n_n none _ _ i

end Cert.KernelIdeal.Hand

end
-- ==== Proof.Blocks.lean ====
/-
  Each window's block read at an entry, as an entry of its array. A block's coordinate along an axis is the block
  index times the block size plus the coordinate inside the block; the index maps are decided once over the grid:
  at point t the Label block is column tile t % 8, the W block is row tile t / 8 and column tile t % 8, the bias
  block and the output block are column tile t / 8. Region 1's windows are their whole arrays.
-/
import proofs.«132898_j52673478918325_1_alg».proof.Proof.R0Frame
import proofs.«132898_j52673478918325_1_alg».proof.Proof.R1Frame
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The index maps over the grid -/

theorem idx0_0 : ∀ t : Fin cfg0.N, win0_0.index t 0 = 0 ∧ win0_0.index t 1 = t.val % 8 :=
  (by decide +kernel : ∀ t : Fin grid0.N, win0_0.index t 0 = 0 ∧ win0_0.index t 1 = t.val % 8)
theorem idx0_1 : ∀ t : Fin cfg0.N, win0_1.index t 0 = t.val / 8 ∧ win0_1.index t 1 = t.val % 8 :=
  (by decide +kernel : ∀ t : Fin grid0.N, win0_1.index t 0 = t.val / 8 ∧ win0_1.index t 1 = t.val % 8)
theorem idx0_2 : ∀ t : Fin cfg0.N, win0_2.index t 0 = 0 ∧ win0_2.index t 1 = t.val / 8 :=
  (by decide +kernel : ∀ t : Fin grid0.N, win0_2.index t 0 = 0 ∧ win0_2.index t 1 = t.val / 8)
theorem idx0_3 : ∀ t : Fin cfg0.N, win0_3.index t 0 = 0 ∧ win0_3.index t 1 = t.val / 8 :=
  (by decide +kernel : ∀ t : Fin grid0.N, win0_3.index t 0 = 0 ∧ win0_3.index t 1 = t.val / 8)
theorem xsize0_3 : ∀ t : Fin cfg0.N, win0_3.xsize (grid0.coords t) 0 = 63 ∧ win0_3.xsize (grid0.coords t) 1 = 2048 :=
  (by decide +kernel : ∀ t : Fin grid0.N, win0_3.xsize (grid0.coords t) 0 = 63 ∧ win0_3.xsize (grid0.coords t) 1 = 2048)
theorem idx1_0 : ∀ t : Fin cfg1.N, win1_0.index t 0 = 0 ∧ win1_0.index t 1 = 0 :=
  (by decide +kernel : ∀ t : Fin grid1.N, win1_0.index t 0 = 0 ∧ win1_0.index t 1 = 0)
theorem idx1_1 : ∀ t : Fin cfg1.N, win1_1.index t 0 = 0 ∧ win1_1.index t 1 = 0 :=
  (by decide +kernel : ∀ t : Fin grid1.N, win1_1.index t 0 = 0 ∧ win1_1.index t 1 = 0)
theorem idx1_2 : ∀ t : Fin cfg1.N, win1_2.index t 0 = 0 ∧ win1_2.index t 1 = 0 :=
  (by decide +kernel : ∀ t : Fin grid1.N, win1_2.index t 0 = 0 ∧ win1_2.index t 1 = 0)
theorem xsize1_2 : ∀ t : Fin cfg1.N, win1_2.xsize (grid1.coords t) 0 = 63 ∧ win1_2.xsize (grid1.coords t) 1 = 8192 :=
  (by decide +kernel : ∀ t : Fin grid1.N, win1_2.xsize (grid1.coords t) 0 = 63 ∧ win1_2.xsize (grid1.coords t) 1 = 8192)

/-! ## Region 0's blocks -/

/-- The Label block at point t: rows as they are, columns from (t % 8) · 1024. -/
theorem blkL_apply (c : Dev nD) (t : Fin cfg0.N) (y : S63x1024.Idx) (k : S63x8192.Idx)
    (h0 : (k 0).val = (y 0).val) (h1 : (k 1).val = t.val % 8 * 1024 + (y 1).val) :
    (iblk0 V c 0 t : Vec F S63x1024 .f32) y = (V c main_arg0 : S63x8192.Idx → Elt F .f32) k := by
  unfold iblk0
  rw [View.read_apply]
  show V c main_arg0 _ = V c main_arg0 k
  congr 1
  funext a
  apply Fin.ext
  match a with
  | ⟨0, _⟩ => show win0_0.index t 0 * 63 + 1 * (y 0).val = (k 0).val; rw [(idx0_0 t).1, h0]; omega
  | ⟨1, _⟩ => show win0_0.index t 1 * 1024 + 1 * (y 1).val = (k 1).val; rw [(idx0_0 t).2, h1]; omega

/-- The W block at point t: rows from (t / 8) · 2048, columns from (t % 8) · 1024. -/
theorem blkW_apply (c : Dev nD) (t : Fin cfg0.N) (y : S2048x1024.Idx) (k : S8192x8192.Idx)
    (h0 : (k 0).val = t.val / 8 * 2048 + (y 0).val) (h1 : (k 1).val = t.val % 8 * 1024 + (y 1).val) :
    (iblk0 V c 1 t : Vec F S2048x1024 .f32) y = (V c main_arg2 : S8192x8192.Idx → Elt F .f32) k := by
  unfold iblk0
  rw [View.read_apply]
  show V c main_arg2 _ = V c main_arg2 k
  congr 1
  funext a
  apply Fin.ext
  match a with
  | ⟨0, _⟩ => show win0_1.index t 0 * 2048 + 1 * (y 0).val = (k 0).val; rw [(idx0_1 t).1, h0]; omega
  | ⟨1, _⟩ => show win0_1.index t 1 * 1024 + 1 * (y 1).val = (k 1).val; rw [(idx0_1 t).2, h1]; omega

/-- The bias block at point t: the one row, columns from (t / 8) · 2048. -/
theorem blkB_apply (c : Dev nD) (t : Fin cfg0.N) (y : S1x2048.Idx) (k : S1x8192.Idx)
    (h0 : (k 0).val = (y 0).val) (h1 : (k 1).val = t.val / 8 * 2048 + (y 1).val) :
    (iblk0 V c 2 t : Vec F S1x2048 .f32) y = (V c main_v0 : S1x8192.Idx → Elt F .f32) k := by
  unfold iblk0
  rw [View.read_apply]
  show V c main_v0 _ = V c main_v0 k
  congr 1
  funext a
  apply Fin.ext
  match a with
  | ⟨0, _⟩ => show win0_2.index t 0 * 1 + 1 * (y 0).val = (k 0).val; rw [(idx0_2 t).1, h0]; omega
  | ⟨1, _⟩ => show win0_2.index t 1 * 2048 + 1 * (y 1).val = (k 1).val; rw [(idx0_2 t).2, h1]; omega

/-! ## Region 1's blocks: the whole arrays -/

theorem blkS_apply (c : Dev nD) (t : Fin cfg1.N) (y : S63x63.Idx) :
    (iblk1 V c 0 t : Vec F S63x63 .f32) y = (V c main_arg1 : S63x63.Idx → Elt F .f32) y := by
  unfold iblk1
  rw [View.read_apply]
  show V c main_arg1 _ = V c main_arg1 y
  congr 1
  funext a
  apply Fin.ext
  match a with
  | ⟨0, _⟩ => show win1_0.index t 0 * 63 + 1 * (y 0).val = (y 0).val; rw [(idx1_0 t).1]; omega
  | ⟨1, _⟩ => show win1_0.index t 1 * 63 + 1 * (y 1).val = (y 1).val; rw [(idx1_0 t).2]; omega

theorem blkM_apply (c : Dev nD) (t : Fin cfg1.N) (y : S8192x63.Idx) :
    (iblk1 V c 1 t : Vec F S8192x63 .f32) y = (V c main_v2 : S8192x63.Idx → Elt F .f32) y := by
  unfold iblk1
  rw [View.read_apply]
  show V c main_v2 _ = V c main_v2 y
  congr 1
  funext a
  apply Fin.ext
  match a with
  | ⟨0, _⟩ => show win1_1.index t 0 * 8192 + 1 * (y 0).val = (y 0).val; rw [(idx1_1 t).1]; omega
  | ⟨1, _⟩ => show win1_1.index t 1 * 63 + 1 * (y 1).val = (y 1).val; rw [(idx1_1 t).2]; omega

end Cert.KernelIdeal.Hand

end
-- ==== Proof.Accum.lean ====
/-
  The accumulator at the ideal values. Write term r n k for Label (r, k) · W (n, k), taken as 0 outside the
  arrays so that it is a function of three naturals. The partial product of point t at entry (r, q) is the sum of
  term r (t/8 · 2048 + q) k over the 1024 indices k of reduction block t % 8. By induction on the point, after
  point n the accumulator's entry (r, q) is the sum of term r (n/8 · 2048 + q) k over k below (n % 8 + 1) · 1024:
  a point of step 0 starts the sum afresh from the cleared accumulator, every other point appends its block.
-/
import proofs.«132898_j52673478918325_1_alg».proof.Proof.Pieces
import proofs.«132898_j52673478918325_1_alg».proof.Proof.Payload
import proofs.«132898_j52673478918325_1_alg».proof.Proof.Blocks

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt Ideal) ((c : Thread nD τ).loc b))

abbrev atL (r : Fin 63) (k : Fin 8192) : S63x8192.Idx := fun a => match a with
  | ⟨0, _⟩ => ⟨r.val, r.isLt⟩
  | ⟨1, _⟩ => ⟨k.val, k.isLt⟩
abbrev atW (n : Fin 8192) (k : Fin 8192) : S8192x8192.Idx := fun a => match a with
  | ⟨0, _⟩ => ⟨n.val, n.isLt⟩
  | ⟨1, _⟩ => ⟨k.val, k.isLt⟩

/-- The arrays region 0 finds and the blocks of a point, each named at its literal type. -/
abbrev Larr (c : Dev nD) : S63x8192.Idx → EReal := V c main_arg0
abbrev Warr (c : Dev nD) : S8192x8192.Idx → EReal := V c main_arg2
abbrev Barr (c : Dev nD) : S1x8192.Idx → EReal := V c main_v0
abbrev lblk (c : Dev nD) (t : Fin cfg0.N) : Vec Ideal S63x1024 .f32 := iblk0 V c 0 t
abbrev wblk (c : Dev nD) (t : Fin cfg0.N) : Vec Ideal S2048x1024 .f32 := iblk0 V c 1 t

/-- Label (r, k) · W (n, k), and 0 outside the arrays. -/
def term (c : Dev nD) (r n k : ℕ) : EReal :=
  if h : r < 63 ∧ n < 8192 ∧ k < 8192 then
    Larr V c (atL ⟨r, h.1⟩ ⟨k, h.2.2⟩) * Warr V c (atW ⟨n, h.2.1⟩ ⟨k, h.2.2⟩)
  else 0

/-- The partial product of point t at an entry. -/
theorem part_eq (c : Dev nD) (t : Fin cfg0.N) (y : S63x2048.Idx) :
    ∑ kk : Fin 1024, lblk V c t (lidxK y kk) * wblk V c t (ridxK y kk)
      = ∑ x ∈ Finset.range 1024, term V c (y 0).val (t.val / 8 * 2048 + (y 1).val) (t.val % 8 * 1024 + x) := by
  rw [← Fin.sum_univ_eq_sum_range (fun x => term V c (y 0).val (t.val / 8 * 2048 + (y 1).val) (t.val % 8 * 1024 + x)) 1024]
  refine Finset.sum_congr rfl fun kk _ => ?_
  have hN : t.val < 32 := lt_of_lt_of_eq t.isLt N_0
  have hy0 : (y 0).val < 63 := (y 0).isLt
  have hy1 : (y 1).val < 2048 := (y 1).isLt
  have hkk : kk.val < 1024 := kk.isLt
  have hb : (y 0).val < 63 ∧ t.val / 8 * 2048 + (y 1).val < 8192 ∧ t.val % 8 * 1024 + kk.val < 8192 := ⟨hy0, by omega, by omega⟩
  unfold term
  rw [dif_pos hb]
  unfold lblk wblk Larr Warr
  rw [blkL_apply V c t (lidxK y kk) (atL ⟨(y 0).val, hb.1⟩ ⟨t.val % 8 * 1024 + kk.val, hb.2.2⟩) rfl rfl,
    blkW_apply V c t (ridxK y kk) (atW ⟨t.val / 8 * 2048 + (y 1).val, hb.2.1⟩ ⟨t.val % 8 * 1024 + kk.val, hb.2.2⟩) rfl rfl]

/-- A point of step 0 leaves its own partial product, -/
theorem stepAcc_first_apply (c : Dev nD) (t : Fin cfg0.N) (h0 : t.val % 8 = 0) (prev : Vec Ideal S63x2048 .f32) (y : S63x2048.Idx) :
    stepAcc V c t prev y = ∑ x ∈ Finset.range 1024, term V c (y 0).val (t.val / 8 * 2048 + (y 1).val) (t.val % 8 * 1024 + x) := by
  have hf : isFirst (grid0.coords t) := (isFirst_iff t).mpr h0
  have hnl : ¬isLast (grid0.coords t) := fun h => absurd ((isLast_iff t).mp h) (by omega)
  have e : stepAcc V c t prev = accFirst c (grid0.coords t) (ms0_0 t) (hs0_0 t) (ms0_1 t) (hs0_1 t) (ms0_2 t) (hs0_2 t) (ms0_3 t) (hs0_3 t) accM (Memref.isWhole_whole _) hf hnl (iblk0 V c 0 t) (iblk0 V c 1 t) (iblk0 V c 2 t) := dif_pos h0
  rw [e]
  refine (congrFun (accFirst_eq c (grid0.coords t) (ms0_0 t) (hs0_0 t) (ms0_1 t) (hs0_1 t) (ms0_2 t) (hs0_2 t) (ms0_3 t) (hs0_3 t) accM (Memref.isWhole_whole _) hf hnl (iblk0 V c 0 t) (iblk0 V c 1 t) (iblk0 V c 2 t)) y).trans ?_
  refine (pay2_apply (iblk0 V c 0 t) (iblk0 V c 1 t) (k0_pay1 (F := Ideal)) y).trans ?_
  rw [pay1_apply, zero_add]
  exact part_eq V c t y

/-- and any other point adds its partial product to what it found. -/
theorem stepAcc_next_apply (c : Dev nD) (t : Fin cfg0.N) (h0 : ¬t.val % 8 = 0) (prev : Vec Ideal S63x2048 .f32) (y : S63x2048.Idx) :
    stepAcc V c t prev y = prev y + ∑ x ∈ Finset.range 1024, term V c (y 0).val (t.val / 8 * 2048 + (y 1).val) (t.val % 8 * 1024 + x) := by
  have hnf : ¬isFirst (grid0.coords t) := fun h => h0 ((isFirst_iff t).mp h)
  by_cases h7 : t.val % 8 = 7
  · have hl : isLast (grid0.coords t) := (isLast_iff t).mpr h7
    have e : stepAcc V c t prev = accLast c (grid0.coords t) (ms0_0 t) (hs0_0 t) (ms0_1 t) (hs0_1 t) (ms0_2 t) (hs0_2 t) (ms0_3 t) (hs0_3 t) accM (Memref.isWhole_whole _) hnf hl (iblk0 V c 0 t) (iblk0 V c 1 t) (iblk0 V c 2 t) prev := (dif_neg h0).trans (dif_pos h7)
    rw [e]
    refine (congrFun (accLast_eq c (grid0.coords t) (ms0_0 t) (hs0_0 t) (ms0_1 t) (hs0_1 t) (ms0_2 t) (hs0_2 t) (ms0_3 t) (hs0_3 t) accM (Memref.isWhole_whole _) hnf hl (iblk0 V c 0 t) (iblk0 V c 1 t) (iblk0 V c 2 t) prev) y).trans ?_
    refine (pay2_apply (iblk0 V c 0 t) (iblk0 V c 1 t) prev y).trans ?_
    exact congrArg (prev y + ·) (part_eq V c t y)
  · have hnl : ¬isLast (grid0.coords t) := fun h => h7 ((isLast_iff t).mp h)
    have e : stepAcc V c t prev = accMid c (grid0.coords t) (ms0_0 t) (hs0_0 t) (ms0_1 t) (hs0_1 t) (ms0_2 t) (hs0_2 t) (ms0_3 t) (hs0_3 t) accM (Memref.isWhole_whole _) hnf hnl (iblk0 V c 0 t) (iblk0 V c 1 t) (iblk0 V c 2 t) prev := (dif_neg h0).trans (dif_neg h7)
    rw [e]
    refine (congrFun (accMid_eq c (grid0.coords t) (ms0_0 t) (hs0_0 t) (ms0_1 t) (hs0_1 t) (ms0_2 t) (hs0_2 t) (ms0_3 t) (hs0_3 t) accM (Memref.isWhole_whole _) hnf hnl (iblk0 V c 0 t) (iblk0 V c 1 t) (iblk0 V c 2 t) prev) y).trans ?_
    refine (pay2_apply (iblk0 V c 0 t) (iblk0 V c 1 t) prev y).trans ?_
    exact congrArg (prev y + ·) (part_eq V c t y)

/-- After point n the accumulator holds the sum over the reduction indices met so far in its column tile. -/
theorem acc_inv (c : Dev nD) : ∀ (n : ℕ) (hn : n < cfg0.N) (y : S63x2048.Idx),
    accAt V c n hn y = ∑ x ∈ Finset.range ((n % 8 + 1) * 1024), term V c (y 0).val (n / 8 * 2048 + (y 1).val) x := by
  intro n
  induction n with
  | zero =>
    intro hn y
    show stepAcc V c ⟨0, hn⟩ noAcc y = _
    rw [stepAcc_first_apply V c ⟨0, hn⟩ rfl]
    try (dsimp only; simp only [Nat.zero_mod, Nat.zero_div, Nat.zero_mul, Nat.zero_add, Nat.one_mul])
  | succ n ih =>
    intro hn y
    show stepAcc V c ⟨n + 1, hn⟩ (accAt V c n (Nat.lt_of_succ_lt hn)) y = _
    by_cases h0 : (n + 1) % 8 = 0
    · rw [stepAcc_first_apply V c ⟨n + 1, hn⟩ h0]
      dsimp only
      rw [h0]
      simp only [Nat.zero_mul, Nat.zero_add, Nat.one_mul]
    · rw [stepAcc_next_apply V c ⟨n + 1, hn⟩ h0, ih]
      dsimp only
      have e1 : (n + 1) / 8 = n / 8 := by omega
      have e2 : (n + 1) % 8 = n % 8 + 1 := by omega
      rw [e1, e2, show (n % 8 + 1 + 1) * 1024 = (n % 8 + 1) * 1024 + 1024 by omega, Finset.sum_range_add]

end Cert.KernelIdeal.Hand

end
-- ==== Proof.R0Value.lean ====
/-
  What region 0 leaves in its output array, at the ideal values: entry (r, n) is max(Σₖ Label (r, k) · W (n, k)
  + bias (0, n), 0), the sum over all 8192 reduction indices. A point of step 7 stores max(acc + bias, 0) over the
  accumulator it has just completed, which holds the full sum for its column tile; that block is the block of
  the whole-array function, and the four written blocks (column tiles 0 to 3) cover the array.
-/
import proofs.«132898_j52673478918325_1_alg».proof.Proof.Accum

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The bias row's entry under column n = i 1. -/
abbrev atB (i : S63x8192.Idx) : S1x8192.Idx := fun a => match a with
  | ⟨0, _⟩ => ⟨0, Nat.one_pos⟩
  | ⟨1, _⟩ => ⟨(i 1).val, (i 1).isLt⟩

/-- Every entry of the output array lies in the block written at step 7 of its column tile. -/
theorem cover0 (i : S63x8192.Idx) : ∃ t : Fin cfg0.N, (cfg0.win 3).flush t = true ∧ i ∈ ((cfg0.win 3).blk t).view.set := by
  have hi0 : (i 0).val < 63 := (i 0).isLt
  have hi1 : (i 1).val < 8192 := (i 1).isLt
  have hN : cfg0.N = 32 := N_0
  have hlt : (i 1).val / 2048 * 8 + 7 < cfg0.N := by omega
  refine ⟨⟨(i 1).val / 2048 * 8 + 7, hlt⟩, (flush0_3 _).mpr (by show ((i 1).val / 2048 * 8 + 7) % 8 = 7; omega), ?_⟩
  have ht : (⟨(i 1).val / 2048 * 8 + 7, hlt⟩ : Fin cfg0.N).val / 8 = (i 1).val / 2048 := by
    show ((i 1).val / 2048 * 8 + 7) / 8 = _; omega
  show i ∈ ((View.whole main_v1).slice (win0_3.rect ⟨(i 1).val / 2048 * 8 + 7, hlt⟩)).set
  rw [View.set_slice_whole, Rect.mem_set_unit]
  intro a
  match a with
  | ⟨0, _⟩ =>
    show win0_3.index ⟨(i 1).val / 2048 * 8 + 7, hlt⟩ 0 * win0_3.size 0 ≤ (i 0 : Nat) ∧ (i 0 : Nat) < win0_3.index ⟨(i 1).val / 2048 * 8 + 7, hlt⟩ 0 * win0_3.size 0 + win0_3.xsize (grid0.coords ⟨(i 1).val / 2048 * 8 + 7, hlt⟩) 0
    rw [(idx0_3 _).1, (xsize0_3 _).1]; omega
  | ⟨1, _⟩ =>
    show win0_3.index ⟨(i 1).val / 2048 * 8 + 7, hlt⟩ 1 * win0_3.size 1 ≤ (i 1 : Nat) ∧ (i 1 : Nat) < win0_3.index ⟨(i 1).val / 2048 * 8 + 7, hlt⟩ 1 * win0_3.size 1 + win0_3.xsize (grid0.coords ⟨(i 1).val / 2048 * 8 + 7, hlt⟩) 1
    rw [(idx0_3 _).2, (xsize0_3 _).2, ht, show win0_3.size 1 = 2048 from rfl]; omega

variable (V : (c : Dev nD) → (b : Ref sig .tc) → Buf (Elt Ideal) ((c : Thread nD τ).loc b))

/-- The activations as one function of the arrays region 0 finds. -/
def actK (c : Dev nD) : S63x8192.Idx → EReal := fun i =>
  max ((∑ x ∈ Finset.range 8192, term V c (i 0).val (i 1).val x) + Barr V c (atB i))
    (FloatOps.ofBits (F := Ideal) .f32 0x00000000#32)

/-- The block stored at step 7, entry by entry. -/
theorem out_apply (c : Dev nD) (t : Fin cfg0.N) (h7 : t.val % 8 = 7) (y : S63x2048.Idx) (i : S63x8192.Idx)
    (h0 : (i 0).val = (y 0).val) (h1 : (i 1).val = t.val / 8 * 2048 + (y 1).val) :
    outAt V c t y = actK V c i := by
  have hnf : ¬isFirst (grid0.coords t) := fun h => absurd ((isFirst_iff t).mp h) (by omega)
  have hl : isLast (grid0.coords t) := (isLast_iff t).mpr h7
  have h0' : ¬t.val % 8 = 0 := by omega
  have e : outAt V c t = outLast c (grid0.coords t) (ms0_0 t) (hs0_0 t) (ms0_1 t) (hs0_1 t) (ms0_2 t) (hs0_2 t) (ms0_3 t) (hs0_3 t) accM (Memref.isWhole_whole _) hnf hl (iblk0 V c 0 t) (iblk0 V c 1 t) (iblk0 V c 2 t) (prevAcc V c t) := dif_pos h7
  rw [e]
  refine (congrFun (outLast_eq c (grid0.coords t) (ms0_0 t) (hs0_0 t) (ms0_1 t) (hs0_1 t) (ms0_2 t) (hs0_2 t) (ms0_3 t) (hs0_3 t) accM (Memref.isWhole_whole _) hnf hl (iblk0 V c 0 t) (iblk0 V c 1 t) (iblk0 V c 2 t) (prevAcc V c t)) y).trans ?_
  refine (pay3_apply (k0_pay2 (iblk0 V c 0 t) (iblk0 V c 1 t) (prevAcc V c t)) (iblk0 V c 2 t) y).trans ?_
  have ea : k0_pay2 (F := Ideal) (iblk0 V c 0 t) (iblk0 V c 1 t) (prevAcc V c t) y = accAt V c t.val t.isLt y := by
    rw [accAt_eq, stepAcc_next_apply V c t h0' (prevAcc V c t) y]
    refine (pay2_apply (iblk0 V c 0 t) (iblk0 V c 1 t) (prevAcc V c t) y).trans ?_
    exact congrArg (prevAcc V c t y + ·) (part_eq V c t y)
  have hb : (iblk0 V c 2 t : Vec Ideal S1x2048 .f32) (bidxK y) = Barr V c (atB i) :=
    blkB_apply V c t (bidxK y) (atB i) rfl h1
  rw [ea, acc_inv V c t.val t.isLt y, h7, hb]
  unfold actK
  rw [h0, h1]

/-- What a flushing point writes back is its block of the whole-array function. -/
theorem flushed0_eq (c : Dev nD) (t : Fin cfg0.N) (hf : (cfg0.win 3).flush t = true) :
    (dat0 V c).flushed 3 t = ((cfg0.win 3).blk t).view.read (Elt Ideal) (actK V c) := by
  have h7 : t.val % 8 = 7 := (flush0_3 t).mp hf
  show (cfg0.win 3).cut (grid0.coords t) ((dat0 V c).after 3 t) = _
  rw [after0_3]
  funext y
  rw [View.read_apply]
  show outAt V c t y = actK V c (((cfg0.win 3).blk t).view.emb y)
  refine out_apply V c t h7 y _ ?_ ?_
  · show win0_3.index t 0 * 63 + 1 * (y 0).val = (y 0).val; rw [(idx0_3 t).1]; omega
  · show win0_3.index t 1 * 2048 + 1 * (y 1).val = t.val / 8 * 2048 + (y 1).val; rw [(idx0_3 t).2]; omega

/-- Region 0's output array after the run. -/
theorem final0 (c : Dev nD) : (dat0 V c).arrAt 3 cfg0.N = actK V c :=
  (dat0 V c).arrAt_eq_of_cover 3 (actK V c) (flushed0_eq V c) cover0

end Cert.KernelIdeal.Hand

end
-- ==== Proof.R1Value.lean ====
/-
  What region 1 leaves in the result array, at the ideal values: entry i is the sum over the contraction of
  S times the reshaped activations, both operands read whole. Its one point writes the whole array.
-/
import proofs.«132898_j52673478918325_1_alg».proof.Proof.Pieces
import proofs.«132898_j52673478918325_1_alg».proof.Proof.Payload
import proofs.«132898_j52673478918325_1_alg».proof.Proof.Blocks

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem cover1 (i : S63x8192.Idx) : ∃ t : Fin cfg1.N, (cfg1.win 2).flush t = true ∧ i ∈ ((cfg1.win 2).blk t).view.set := by
  have hi0 : (i 0).val < 63 := (i 0).isLt
  have hi1 : (i 1).val < 8192 := (i 1).isLt
  refine ⟨t1_0, flush1_2 t1_0, ?_⟩
  show i ∈ ((View.whole main_v3).slice (win1_2.rect t1_0)).set
  rw [View.set_slice_whole, Rect.mem_set_unit]
  intro a
  match a with
  | ⟨0, _⟩ =>
    show win1_2.index t1_0 0 * win1_2.size 0 ≤ (i 0 : Nat) ∧ (i 0 : Nat) < win1_2.index t1_0 0 * win1_2.size 0 + win1_2.xsize (grid1.coords t1_0) 0
    rw [(idx1_2 _).1, (xsize1_2 _).1]; omega
  | ⟨1, _⟩ =>
    show win1_2.index t1_0 1 * win1_2.size 1 ≤ (i 1 : Nat) ∧ (i 1 : Nat) < win1_2.index t1_0 1 * win1_2.size 1 + win1_2.xsize (grid1.coords t1_0) 1
    rw [(idx1_2 _).2, (xsize1_2 _).2]; omega

variable (V : (c : Dev nD) → (b : Ref sig .tc) → Buf (Elt Ideal) ((c : Thread nD τ).loc b))

/-- The arrays region 1 finds, each named at its literal type. -/
abbrev Sarr (c : Dev nD) : S63x63.Idx → EReal := V c main_arg1
abbrev Marr (c : Dev nD) : S8192x63.Idx → EReal := V c main_v2

/-- The product as one function of the arrays region 1 finds. -/
def prodK (c : Dev nD) : S63x8192.Idx → EReal := fun i =>
  ∑ k : dot_S63x63_S8192x63_S63x8192_1_1_0_0_n_n.contr.Idx, Sarr V c (dot_S63x63_S8192x63_S63x8192_1_1_0_0_n_n.lhsIdx i k) * Marr V c (dot_S63x63_S8192x63_S63x8192_1_1_0_0_n_n.rhsIdx i k)

theorem flushed1_eq (c : Dev nD) (t : Fin cfg1.N) (hf : (cfg1.win 2).flush t = true) :
    (dat1 V c).flushed 2 t = ((cfg1.win 2).blk t).view.read (Elt Ideal) (prodK V c) := by
  show (cfg1.win 2).cut (grid1.coords t) ((dat1 V c).after 2 t) = _
  rw [after1_2]
  funext y
  rw [View.read_apply]
  have he : ((cfg1.win 2).blk t).view.emb y = y := funext fun a => Fin.ext (by
    match a with
    | ⟨0, _⟩ => show win1_2.index t 0 * 63 + 1 * (y 0).val = (y 0).val; rw [(idx1_2 t).1]; omega
    | ⟨1, _⟩ => show win1_2.index t 1 * 8192 + 1 * (y 1).val = (y 1).val; rw [(idx1_2 t).2]; omega)
  show outProd c (grid1.coords t) (ms1_0 t) (hs1_0 t) (ms1_1 t) (hs1_1 t) (ms1_2 t) (hs1_2 t) (iblk1 V c 0 t) (iblk1 V c 1 t) y = prodK V c (((cfg1.win 2).blk t).view.emb y)
  rw [he]
  refine (congrFun (outProd_eq c (grid1.coords t) (ms1_0 t) (hs1_0 t) (ms1_1 t) (hs1_1 t) (ms1_2 t) (hs1_2 t) (iblk1 V c 0 t) (iblk1 V c 1 t)) y).trans ?_
  refine (prod_apply (iblk1 V c 0 t) (iblk1 V c 1 t) y).trans ?_
  unfold prodK
  refine Finset.sum_congr rfl fun k _ => ?_
  rw [blkS_apply V c t, blkM_apply V c t]

/-- The result array after the run. -/
theorem final1 (c : Dev nD) : (dat1 V c).arrAt 2 cfg1.N = prodK V c :=
  (dat1 V c).arrAt_eq_of_cover 2 (prodK V c) (flushed1_eq V c) cover1

end Cert.KernelIdeal.Hand

end
-- ==== Proof.Bridge.lean ====
/-
  The kernel's result as a function of the argument arrays, and the reference's, are one function. Region 0
  finds Label and W as launched and the bias reshaped to one row, and leaves max(Σₖ Label (r, k) · W (n, k) + b n, 0):
  the reference's relu(Label · Wᵀ + b) at (r, n), whose product is the same sum over k, its transposed operand
  read back at (n, k). Both programs then reshape those activations to 8192 × 63 and contract them with S over
  the same contraction, so the results agree entry by entry. Nothing here needs the inputs finite: only the
  regrouping of one sum, which the extended reals allow.
-/
import proofs.«132898_j52673478918325_1_alg».proof.Proof.MainRun
import proofs.«132898_j52673478918325_1_alg».proof.Proof.R0Value
import proofs.«132898_j52673478918325_1_alg».proof.Proof.R1Value
import proofs.«132898_j52673478918325_1_alg».proof.Proof.Gen.ReferenceIdeal.Read
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Cert.ReferenceIdeal.Read in
section

variable (m : (ℓ : Loc nD τ sig) → Buf (Elt Ideal) ℓ) (ρ : Dev nD → PrngReg)

/-- The argument arrays as launched, each named at its literal type. -/
abbrev Lm (c : Dev nD) : S63x8192.Idx → EReal := m ((c : Thread nD τ).loc main_arg0)
abbrev Wm (c : Dev nD) : S8192x8192.Idx → EReal := m ((c : Thread nD τ).loc main_arg2)
abbrev bm (c : Dev nD) : S8192.Idx → EReal := m ((c : Thread nD τ).loc main_arg3)

/-! ## What the regions find -/

theorem V1_arg0 (c : Dev nD) : V1 m ρ c main_arg0 = m ((c : Thread nD τ).loc main_arg0) :=
  (StableHlo.after_of_writes_sub hostOps0 _ hostOps0_writes (by decide)).trans rfl
theorem V1_arg2 (c : Dev nD) : V1 m ρ c main_arg2 = m ((c : Thread nD τ).loc main_arg2) :=
  (StableHlo.after_of_writes_sub hostOps0 _ hostOps0_writes (by decide)).trans rfl
/-- The bias as one row. -/
theorem V1_v0 (c : Dev nD) :
    (V1 m ρ c main_v0 : S1x8192.Idx → EReal) = shapeCast S1x8192 (m ((c : Thread nD τ).loc main_arg3) : S8192.Idx → EReal) shapeCasts_S8192_S1x8192 := by
  show StableHlo.after hostOps0 (W0 m ρ c) (Proc.devRef .tc main_v0) = _
  after_results
  rfl
theorem V3_arg1 (c : Dev nD) : V3 m ρ c main_arg1 = m ((c : Thread nD τ).loc main_arg1) :=
  calc W3 m ρ c (Proc.devRef .tc main_arg1)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl
/-- The activations reshaped to 8192 × 63. -/
theorem V3_v2 (c : Dev nD) :
    (V3 m ρ c main_v2 : S8192x63.Idx → EReal) = shapeCast S8192x63 (actK (V1 m ρ) c) shapeCasts_S63x8192_S8192x63 := by
  have e : (W2 m ρ c (Proc.devRef .tc main_v1) : S63x8192.Idx → EReal) = actK (V1 m ρ) c :=
    (W2_arr m ρ c 3).trans (final0 (V1 m ρ) c)
  rw [← e]
  show StableHlo.after hostOps1 (W2 m ρ c) (Proc.devRef .tc main_v2) = _
  after_results
  rfl

/-! ## The activations are the reference's -/

theorem act_ref (c : Dev nD) (i : S63x8192.Idx) :
    actK (V1 m ρ) c i = val_main_v5 (F := Ideal) (m ((c : Thread nD τ).loc main_arg0)) (m ((c : Thread nD τ).loc main_arg2)) (m ((c : Thread nD τ).loc main_arg3)) i := by
  rw [val_main_v5_apply, val_main_v4_apply, val_main_v1_apply, val_main_v3_apply, val_main_v2_apply, val_main_call0_v0_apply, val_main_call0_cst_apply]
  simp only [val_main_v0_apply]
  unfold actK
  have hs : ∑ x ∈ Finset.range 8192, term (V1 m ρ) c (i 0).val (i 1).val x
      = ∑ k : Fin 8192, Lm m c (lidx_main_v1 i k) * Wm m c (idx_main_v0 (ridx_main_v1 i k)) := by
    rw [← Fin.sum_univ_eq_sum_range (fun x => term (V1 m ρ) c (i 0).val (i 1).val x) 8192]
    refine Finset.sum_congr rfl fun k _ => ?_
    have hb : (i 0).val < 63 ∧ (i 1).val < 8192 ∧ k.val < 8192 := ⟨(i 0).isLt, (i 1).isLt, k.isLt⟩
    unfold term
    rw [dif_pos hb]
    unfold Larr Warr Lm Wm
    rw [V1_arg0, V1_arg2]
    congr 1
  have hbias : Barr (V1 m ρ) c (atB i) = bm m c (idx_main_v2 (idx_main_v3 i)) := by
    unfold Barr bm
    rw [V1_v0]
    exact shapeCast_apply _ shapeCasts_S8192_S1x8192 (atB i) (idx_main_v2 (idx_main_v3 i))
      (by rw [Shape.rowMajor_val_one, Shape.rowMajor_val_two]; show (i 1).val = 0 * 8192 + (i 1).val; omega)
  rw [hs, hbias]
  rfl

/-! ## The results -/

/-- The kernel's result array as a function of the arguments. -/
def resK (c : Dev nD) : S63x8192.Idx → EReal := prodK (V3 m ρ) c

theorem result_eq (c : Dev nD) : (dat1 (V3 m ρ) c).arrAt 2 cfg1.N = resK m ρ c := final1 (V3 m ρ) c

theorem resK_eq_ref (c : Dev nD) :
    resK m ρ c = val_main_v7 (F := Ideal) (m ((c : Thread nD τ).loc main_arg0)) (m ((c : Thread nD τ).loc main_arg1)) (m ((c : Thread nD τ).loc main_arg2)) (m ((c : Thread nD τ).loc main_arg3)) := by
  funext i
  unfold resK prodK
  unfold Sarr Marr
  rw [V3_arg1, V3_v2, show actK (V1 m ρ) c = val_main_v5 (F := Ideal) (m ((c : Thread nD τ).loc main_arg0)) (m ((c : Thread nD τ).loc main_arg2)) (m ((c : Thread nD τ).loc main_arg3)) from funext (act_ref m ρ c)]
  unfold val_main_v7 val_main_v6
  simp only [Host.dotGeneral]
  rw [Ideal.dotGeneral_apply]
  rfl

end

end Cert.KernelIdeal.Hand

end
-- ==== Proof.lean ====
/-
  The certificate of the K-blocked linear layer with relu, followed by the contraction with S, against its jnp
  reference.

  The kernel's program reshapes the bias to one row, runs region 0 (grid 4 × 8: column tile by reduction step; a
  scratch accumulator cleared at step 0, one partial product Label-block · W-blockᵀ added per step, the output
  block max(acc + bias, 0) stored at step 7), reshapes the activations to 8192 × 63 and runs region 1 (one point:
  S times the reshaped activations). The reference computes relu(Label · Wᵀ + b), the same reshape and the same
  contraction on the host.

  Frames. The two kernel programs are one text under two namespaces; their frame is proved once at any float
  instance (region 0's invariant keeps the accumulator at a fold over the grid points, region 1 carries nothing)
  and laid out for the word-level program by substitution. The reference's frame is its run with the result dropped.

  Values. At the ideal values a change of float format is the identity and every sum is exact, so region 0's
  eight partial sums over 1024 reduction indices are the reference's one sum over 8192, regrouped: the accumulator
  after step j holds the sum over the first (j + 1) · 1024 indices. Adding the bias and taking the maximum with 0
  is the same expression on both sides, and so is everything after it. No finiteness of the inputs is used.
-/
import proofs.«132898_j52673478918325_1_alg».proof.Defs
import proofs.«132898_j52673478918325_1_alg».proof.Proof.Gen.Kernel
import proofs.«132898_j52673478918325_1_alg».proof.Proof.Gen.KernelIdeal
import proofs.«132898_j52673478918325_1_alg».proof.Proof.Gen.ReferenceIdeal
import proofs.«132898_j52673478918325_1_alg».proof.Proof.Gen.Pre_finite_inputs
import proofs.«132898_j52673478918325_1_alg».proof.Proof.Gen.ReferenceIdeal.Run
import proofs.«132898_j52673478918325_1_alg».proof.Proof.Gen.ReferenceIdeal.Read
import proofs.«132898_j52673478918325_1_alg».proof.Proof.Bits.MainRun
import proofs.«132898_j52673478918325_1_alg».proof.Proof.MainRun
import proofs.«132898_j52673478918325_1_alg».proof.Proof.Bridge
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Hand.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the arguments both programs end with the result array at one function of them. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.KernelIdeal.Hand.resK m ρ c, ?_, ?_⟩
  · exact (θ_run Cert.KernelIdeal.defs _ _).mono
      (fun _ h c => ⟨(h c).1.trans (Cert.KernelIdeal.Hand.result_eq m ρ c), (h c).2⟩)
      (Cert.KernelIdeal.Hand.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v7_eq, (hagree c).1, (hagree c).2.1, (hagree c).2.2.1, (hagree c).2.2.2]
    exact (Cert.KernelIdeal.Hand.resK_eq_ref m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
